-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S100000x40 : Shape := ⟨2, ![100000, 40]⟩
abbrev S5000x40 : Shape := ⟨2, ![5000, 40]⟩
abbrev S700000x40 : Shape := ⟨2, ![700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x600000, .i32⟩
  | .hbm, ⟨10, _⟩ => ⟨S600000, .i32⟩
  | .hbm, ⟨11, _⟩ => ⟨S700000, .i32⟩
  | .hbm, ⟨12, _⟩ => ⟨S1x600000, .i32⟩
  | .hbm, ⟨13, _⟩ => ⟨S600000, .i32⟩
  | .hbm, ⟨14, _⟩ => ⟨S700000, .i32⟩
  | .hbm, ⟨15, _⟩ => ⟨S_, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S700000, .i32⟩
  | .hbm, ⟨34, _⟩ => ⟨S700000, .i1⟩
  | .hbm, ⟨35, _⟩ => ⟨S_, .i32⟩
  | .hbm, ⟨36, _⟩ => ⟨S700000, .i32⟩
  | .hbm, ⟨37, _⟩ => ⟨S700000, .i32⟩
  | .hbm, ⟨38, _⟩ => ⟨S700000, .i32⟩
  | .hbm, ⟨39, _⟩ => ⟨S700000x1, .i32⟩
  | .hbm, ⟨40, _⟩ => ⟨S700000, .f32⟩
  | .hbm, ⟨41, _⟩ => ⟨S_, .i32⟩
  | .hbm, ⟨42, _⟩ => ⟨S700000, .i32⟩
  | .hbm, ⟨43, _⟩ => ⟨S700000, .i1⟩
  | .hbm, ⟨44, _⟩ => ⟨S_, .i32⟩
  | .hbm, ⟨45, _⟩ => ⟨S700000, .i32⟩
  | .hbm, ⟨46, _⟩ => ⟨S700000, .i32⟩
  | .hbm, ⟨47, _⟩ => ⟨S700000, .i32⟩
  | .hbm, ⟨48, _⟩ => ⟨S700000x1, .i32⟩
  | .hbm, ⟨49, _⟩ => ⟨S700000, .f32⟩
  | .hbm, ⟨50, _⟩ => ⟨S700000, .f32⟩
  | .hbm, ⟨51, _⟩ => ⟨S100000x128, .f32⟩
  | .hbm, ⟨52, _⟩ => ⟨S_, .i32⟩
  | .hbm, ⟨53, _⟩ => ⟨S700000, .i32⟩
  | .hbm, ⟨54, _⟩ => ⟨S700000, .i1⟩
  | .hbm, ⟨55, _⟩ => ⟨S_, .i32⟩
  | .hbm, ⟨56, _⟩ => ⟨S700000, .i32⟩
  | .hbm, ⟨57, _⟩ => ⟨S700000, .i32⟩
  | .hbm, ⟨58, _⟩ => ⟨S700000, .i32⟩
  | .hbm, ⟨59, _⟩ => ⟨S700000x1, .i32⟩
  | .hbm, ⟨60, _⟩ => ⟨S700000x128, .f32⟩
  | .hbm, ⟨61, _⟩ => ⟨S700000x1, .f32⟩
  | .hbm, ⟨62, _⟩ => ⟨S700000x128, .f32⟩
  | .hbm, ⟨63, _⟩ => ⟨S700000x128, .f32⟩
  | .hbm, ⟨64, _⟩ => ⟨S_, .f32⟩
  | .hbm, ⟨65, _⟩ => ⟨S100000x128, .f32⟩
  | .hbm, ⟨66, _⟩ => ⟨S700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S700000, .i32⟩
  | .hbm, ⟨73, _⟩ => ⟨S700000, .i1⟩
  | .hbm, ⟨74, _⟩ => ⟨S_, .i32⟩
  | .hbm, ⟨75, _⟩ => ⟨S700000, .i32⟩
  | .hbm, ⟨76, _⟩ => ⟨S700000, .i32⟩
  | .hbm, ⟨77, _⟩ => ⟨S700000, .i32⟩
  | .hbm, ⟨78, _⟩ => ⟨S700000x1, .i32⟩
  | .hbm, ⟨79, _⟩ => ⟨S700000x128, .f32⟩
  | .hbm, ⟨80, _⟩ => ⟨S700000x1, .f32⟩
  | .hbm, ⟨81, _⟩ => ⟨S700000x128, .f32⟩
  | .hbm, ⟨82, _⟩ => ⟨S700000x128, .f32⟩
  | .hbm, ⟨83, _⟩ => ⟨S_, .f32⟩
  | .hbm, ⟨84, _⟩ => ⟨S100000x128, .f32⟩
  | .hbm, ⟨85, _⟩ => ⟨S700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x40, .f32⟩
  | .hbm, ⟨90, _⟩ => ⟨S_, .i32⟩
  | .hbm, ⟨91, _⟩ => ⟨S700000, .i32⟩
  | .hbm, ⟨92, _⟩ => ⟨S700000, .i1⟩
  | .hbm, ⟨93, _⟩ => ⟨S_, .i32⟩
  | .hbm, ⟨94, _⟩ => ⟨S700000, .i32⟩
  | .hbm, ⟨95, _⟩ => ⟨S700000, .i32⟩
  | .hbm, ⟨96, _⟩ => ⟨S700000, .i32⟩
  | .hbm, ⟨97, _⟩ => ⟨S700000x1, .i32⟩
  | .hbm, ⟨98, _⟩ => ⟨S700000x40, .f32⟩
  | .hbm, ⟨99, _⟩ => ⟨S700000x1, .f32⟩
  | .hbm, ⟨100, _⟩ => ⟨S700000x40, .f32⟩
  | .hbm, ⟨101, _⟩ => ⟨S700000x40, .f32⟩
  | .hbm, ⟨102, _⟩ => ⟨S_, .f32⟩
  | .hbm, ⟨103, _⟩ => ⟨S100000x40, .f32⟩
  | .hbm, ⟨104, _⟩ => ⟨S700000x1, .i32⟩
  | .hbm, ⟨105, _⟩ => ⟨S100000x40, .f32⟩
  | .hbm, ⟨106, _⟩ => ⟨S1x40, .f32⟩
  | .hbm, ⟨107, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S700000x1_S700000x40_0_1 : S700000x1.BroadcastsInDim S700000x40 (![0, 1] : Fin 2 → Fin S700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x40_S5000x40_1_0_0_1_n_n_wf : DotDims.WF S5000x128 S128x40 S5000x40 [1] [0] [0] [1] [] []
  gather_S100000x40_S700000x1_S700000x40_1_0_n_n_0_1_140_wf : GatherDims.WF S100000x40 S700000x1 S700000x40 [1] [0] [] [0] [] 1 ![1, 40]
  scatter_S100000x40_S700000x1_S700000x40_1_0_0_1_wf : ScatterDims.WF S100000x40 S700000x1 S700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S700000x1_S700000x40_1_0_n_n_0_1_140 : GatherDims S100000x40 S700000x1 S700000x40 where
  offsetDims := [1]
  collapsedSliceDims := [0]
  operandBatchingDims := []
  startIndicesBatchingDims := []
  startIndexMap := [0]
  indexVectorDim := 1
  sliceSizes := ![1, 40]
  wf := gather_S100000x40_S700000x1_S700000x40_1_0_n_n_0_1_140_wf
def scatter_S100000x40_S700000x1_S700000x40_1_0_0_1 : ScatterDims S100000x40 S700000x1 S700000x40 where
  updateWindowDims := [1]
  insertedWindowDims := [0]
  scatterDimsToOperandDims := [0]
  indexVectorDim := 1
  wf := scatter_S100000x40_S700000x1_S700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x40 : Shape := ⟨2, ![100000, 40]⟩
abbrev S700000x40 : Shape := ⟨2, ![700000, 40]⟩
abbrev S1x40 : Shape := ⟨2, ![1, 40]⟩
abbrev S100000x1 : Shape := ⟨2, ![100000, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S100000, .i32⟩
  | 9 => ⟨S1x600000, .i32⟩
  | 10 => ⟨S600000, .i32⟩
  | 11 => ⟨S700000, .i32⟩
  | 12 => ⟨S1x600000, .i32⟩
  | 13 => ⟨S600000, .i32⟩
  | 14 => ⟨S700000, .i32⟩
  | 15 => ⟨S_, .f32⟩
  | 16 => ⟨S700000, .f32⟩
  | 17 => ⟨S_, .f32⟩
  | 18 => ⟨S100000, .f32⟩
  | 19 => ⟨S700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S700000, .i32⟩
  | 34 => ⟨S700000, .i1⟩
  | 35 => ⟨S_, .i32⟩
  | 36 => ⟨S700000, .i32⟩
  | 37 => ⟨S700000, .i32⟩
  | 38 => ⟨S700000, .i32⟩
  | 39 => ⟨S700000x1, .i32⟩
  | 40 => ⟨S700000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S700000, .f32⟩
  | 51 => ⟨S100000x128, .f32⟩
  | 52 => ⟨S_, .i32⟩
  | 53 => ⟨S700000, .i32⟩
  | 54 => ⟨S700000, .i1⟩
  | 55 => ⟨S_, .i32⟩
  | 56 => ⟨S700000, .i32⟩
  | 57 => ⟨S700000, .i32⟩
  | 58 => ⟨S700000, .i32⟩
  | 59 => ⟨S700000x1, .i32⟩
  | 60 => ⟨S700000x128, .f32⟩
  | 61 => ⟨S700000x1, .f32⟩
  | 62 => ⟨S700000x128, .f32⟩
  | 63 => ⟨S700000x128, .f32⟩
  | 64 => ⟨S_, .f32⟩
  | 65 => ⟨S100000x128, .f32⟩
  | 66 => ⟨S700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S700000, .i32⟩
  | 77 => ⟨S700000, .i1⟩
  | 78 => ⟨S_, .i32⟩
  | 79 => ⟨S700000, .i32⟩
  | 80 => ⟨S700000, .i32⟩
  | 81 => ⟨S700000, .i32⟩
  | 82 => ⟨S700000x1, .i32⟩
  | 83 => ⟨S700000x128, .f32⟩
  | 84 => ⟨S700000x1, .f32⟩
  | 85 => ⟨S700000x128, .f32⟩
  | 86 => ⟨S700000x128, .f32⟩
  | 87 => ⟨S_, .f32⟩
  | 88 => ⟨S100000x128, .f32⟩
  | 89 => ⟨S700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x40, .f32⟩
  | 98 => ⟨S_, .i32⟩
  | 99 => ⟨S700000, .i32⟩
  | 100 => ⟨S700000, .i1⟩
  | 101 => ⟨S_, .i32⟩
  | 102 => ⟨S700000, .i32⟩
  | 103 => ⟨S700000, .i32⟩
  | 104 => ⟨S700000, .i32⟩
  | 105 => ⟨S700000x1, .i32⟩
  | 106 => ⟨S700000x40, .f32⟩
  | 107 => ⟨S700000x1, .f32⟩
  | 108 => ⟨S700000x40, .f32⟩
  | 109 => ⟨S700000x40, .f32⟩
  | 110 => ⟨S_, .f32⟩
  | 111 => ⟨S100000x40, .f32⟩
  | 112 => ⟨S700000x1, .i32⟩
  | 113 => ⟨S100000x40, .f32⟩
  | 114 => ⟨S1x40, .f32⟩
  | 115 => ⟨S100000x40, .f32⟩
  | 116 => ⟨S100000x40, .f32⟩
  | 117 => ⟨S_, .f32⟩
  | 118 => ⟨S100000x40, .f32⟩
  | 119 => ⟨S100000x40, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000, .f32⟩
  | 3 => ⟨S100000x1, .f32⟩
  | 4 => ⟨S100000x1, .f32⟩
  | 5 => ⟨S100000x40, .f32⟩
  | 6 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev main_call4_cst : Ref sig .tc := ⟨.hbm, 120, rfl⟩
abbrev main_call4_v0 : Ref sig .tc := ⟨.hbm, 121, rfl⟩
abbrev main_call4_cst_0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_v6 : Ref sig .tc := ⟨.hbm, 128, rfl⟩
abbrev main_call4_cst_1 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_v86 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x40_0_1 : S700000x1.BroadcastsInDim S700000x40 (![0, 1] : Fin 2 → Fin S700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x40_S100000x40_1_0_0_1_n_n_wf : DotDims.WF S100000x128 S128x40 S100000x40 [1] [0] [0] [1] [] []
  gather_S100000x40_S700000x1_S700000x40_1_0_n_n_0_1_140_wf : GatherDims.WF S100000x40 S700000x1 S700000x40 [1] [0] [] [0] [] 1 ![1, 40]
  scatter_S100000x40_S700000x1_S700000x40_1_0_0_1_wf : ScatterDims.WF S100000x40 S700000x1 S700000x40 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S700000x1_S700000x40_1_0_n_n_0_1_140 : GatherDims S100000x40 S700000x1 S700000x40 where
  offsetDims := [1]
  collapsedSliceDims := [0]
  operandBatchingDims := []
  startIndicesBatchingDims := []
  startIndexMap := [0]
  indexVectorDim := 1
  sliceSizes := ![1, 40]
  wf := gather_S100000x40_S700000x1_S700000x40_1_0_n_n_0_1_140_wf
def scatter_S100000x40_S700000x1_S700000x40_1_0_0_1 : ScatterDims S100000x40 S700000x1 S700000x40 where
  updateWindowDims := [1]
  insertedWindowDims := [0]
  scatterDimsToOperandDims := [0]
  indexVectorDim := 1
  wf := scatter_S100000x40_S700000x1_S700000x40_1_0_0_1_wf

class Facts : Prop extends Facts₀ where

variable [Facts]
-- ==== Proof.Spec.lean ====
/-
  A three-layer graph convolution with a closing log-softmax, as ONE function of the eight argument arrays.

  From the edge list (two rows of 600000 node numbers) both programs form the 700000 edges' source and target
  columns (the given edges followed by one self-loop per node), the target column's degree count, each node's
  inverse square root degree (zero where the count is not positive) and each edge's weight, the product of its
  two ends' values. A layer multiplies the node features by a weight matrix, gathers each edge's source row, scales
  it by the edge's weight, sums the rows arriving at each target node, adds the bias row and clamps at zero. After
  the third layer each row is shifted by its maximum and by the logarithm of the sum of its exponentials.

  Every function below is written with the host operations the reference program applies, so that the
  reference's result is this composition by unfolding; what the kernel program's six pipelines leave is compared
  with the three non-shared pieces (the matrix product, the bias and clamp, the closing log-softmax) index by index.
-/
import proofs.«142489_j22153441312995_1_alg».proof.Proof.Gen.ReferenceIdeal
import Idealize.ShloMosaic.PureOps.Ideal.Laws
import Idealize.ShloMosaic.Lib.ValueIdx
import Idealize.ShloMosaic.Lib.Pipeline.Value

noncomputable section

namespace Cert.Gcn

open Cert.ReferenceIdeal Cert.ReferenceIdeal.Gen Idealize.ShloMosaic

variable {F : FTy → Type} [FloatOps F]

/-! ## The edge list: columns, degrees, weights -/

/-- The first row of the edge list followed by the node numbers 0 … 99999 (one self-loop per node). -/
def srcIdx (e : Vec F S2x600000 .i32) : Vec F S700000 .i32 :=
  concatenate S700000 0 [⟨S600000, (shapeCast S600000 (extractStridedSlice S1x600000 ![0, 0] e slices_S2x600000_S1x600000_0_0) shapeCasts_S1x600000_S600000)⟩, ⟨S100000, (iotaInDim S100000 32 0)⟩] concatenates_S600000_S100000_S700000_d0

/-- The second row of the edge list followed by the same node numbers. -/
def dstIdx (e : Vec F S2x600000 .i32) : Vec F S700000 .i32 :=
  concatenate S700000 0 [⟨S600000, (shapeCast S600000 (extractStridedSlice S1x600000 ![1, 0] e slices_S2x600000_S1x600000_1_0) shapeCasts_S1x600000_S600000)⟩, ⟨S100000, (iotaInDim S100000 32 0)⟩] concatenates_S600000_S100000_S700000_d0

/-- A column of node numbers as gather indices: a negative number has 100000 added, and the column becomes
    700000 index vectors of length one. -/
def wrapIdx (s : Vec F S700000 .i32) : Vec F S700000x1 .i32 :=
  broadcastInDim S700000x1 ![0] bcast_S700000_S700000x1_0
    (select (cmpi .slt s (broadcastInDim S700000 ![] bcast_S_S700000 (constantI S_ 32 0#32)))
      (addi s (broadcastInDim S700000 ![] bcast_S_S700000 (constantI S_ 32 100000#32))) s)

/-- How many edges arrive at each node, from the target column: ones scattered by it into zeros. -/
def degreeOf (d : Vec F S700000 .i32) : Vec F S100000 .f32 :=
  Host.scatterAdd scatter_S100000_S700000x1_S700000_n_0_0_1
    (broadcastInDim S100000 ![] bcast_S_S100000 (constant S_ .f32 0x00000000#32))
    (broadcastInDim S700000x1 ![0] bcast_S700000_S700000x1_0 d)
    (broadcastInDim S700000 ![] bcast_S_S700000 (constant S_ .f32 0x3F800000#32))

/-- The inverse square root of the larger of the degree and one where the degree is positive, zero elsewhere. -/
def invSqrtDegOf (d : Vec F S700000 .i32) : Vec F S100000 .f32 :=
  select (cmpf (F := F) .ogt (degreeOf d) (broadcastInDim S100000 ![] bcast_S_S100000 (constant S_ .f32 0x00000000#32)))
    (Host.rsqrt (maximumf (degreeOf d) (broadcastInDim S100000 ![] bcast_S_S100000 (constant S_ .f32 0x3F800000#32))))
    (broadcastInDim S100000 ![] bcast_S_S100000 (constant S_ .f32 0x00000000#32))

/-- An edge's weight from the two columns: the product of its source's and its target's inverse square root degree. -/
def edgeNormOf (s d : Vec F S700000 .i32) : Vec F S700000 .f32 :=
  mulf (Host.gather gather_S100000_S700000x1_S700000_n_0_n_n_0_1_1 (invSqrtDegOf d) (wrapIdx s))
    (Host.gather gather_S100000_S700000x1_S700000_n_0_n_n_0_1_1 (invSqrtDegOf d) (wrapIdx d))

/-- An edge's weight from the edge list. -/
def edgeNorm (e : Vec F S2x600000 .i32) : Vec F S700000 .f32 := edgeNormOf (srcIdx e) (dstIdx e)

/-! ## One layer's pieces -/

/-- Message passing over 128 features, from the two columns and the edges' weights: each edge's source row times the
    edge's weight, summed into its target row. -/
def aggOf128 (s d : Vec F S700000 .i32) (n : Vec F S700000 .f32) (lin : Vec F S100000x128 .f32) : Vec F S100000x128 .f32 :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 d)
    (mulf (Host.gather gather_S100000x128_S700000x1_S700000x128_1_0_n_n_0_1_1128 lin (wrapIdx s))
      (broadcastInDim S700000x128 ![0, 1] bcast_S700000x1_S700000x128_0_1
        (broadcastInDim S700000x1 ![0] bcast_S700000_S700000x1_0 n)))

/-- The same over 40 features. -/
def aggOf40 (s d : Vec F S700000 .i32) (n : Vec F S700000 .f32) (lin : Vec F S100000x40 .f32) : Vec F S100000x40 .f32 :=
  Host.scatterAdd scatter_S100000x40_S700000x1_S700000x40_1_0_0_1
    (broadcastInDim S100000x40 ![] bcast_S_S100000x40 (constant S_ .f32 0x00000000#32))
    (broadcastInDim S700000x1 ![0] bcast_S700000_S700000x1_0 d)
    (mulf (Host.gather gather_S100000x40_S700000x1_S700000x40_1_0_n_n_0_1_140 lin (wrapIdx s))
      (broadcastInDim S700000x40 ![0, 1] bcast_S700000x1_S700000x40_0_1
        (broadcastInDim S700000x1 ![0] bcast_S700000_S700000x1_0 n)))

/-- Message passing over 128 features, from the edge list. -/
def agg128 (e : Vec F S2x600000 .i32) (lin : Vec F S100000x128 .f32) : Vec F S100000x128 .f32 :=
  aggOf128 (srcIdx e) (dstIdx e) (edgeNorm e) lin

/-- Message passing over 40 features, from the edge list. -/
def agg40 (e : Vec F S2x600000 .i32) (lin : Vec F S100000x40 .f32) : Vec F S100000x40 .f32 :=
  aggOf40 (srcIdx e) (dstIdx e) (edgeNorm e) lin

/-- Node features times a 128 × 128 weight matrix. -/
def lin128 (x : Vec F S100000x128 .f32) (w : Vec F S128x128 .f32) : Vec F S100000x128 .f32 :=
  Host.dotGeneral dot_S100000x128_S128x128_S100000x128_1_0_0_1_n_n none x w

/-- Node features times a 128 × 40 weight matrix. -/
def lin40 (x : Vec F S100000x128 .f32) (w : Vec F S128x40 .f32) : Vec F S100000x40 .f32 :=
  Host.dotGeneral dot_S100000x128_S128x40_S100000x40_1_0_0_1_n_n none x w

/-- A bias given as ONE ROW added to every node's row, then the clamp at zero. -/
def biasReluRow128 (a : Vec F S100000x128 .f32) (b : Vec F S1x128 .f32) : Vec F S100000x128 .f32 :=
  maximumf (addf a (broadcastInDim S100000x128 ![0, 1] bcast_S1x128_S100000x128_0_1 b))
    (broadcastInDim S100000x128 ![] bcast_S_S100000x128 (constant S_ .f32 0x00000000#32))

/-- The bias vector laid out as one row, added to every node's row, then the clamp at zero. -/
def biasRelu128 (a : Vec F S100000x128 .f32) (b : Vec F S128 .f32) : Vec F S100000x128 .f32 :=
  biasReluRow128 a (broadcastInDim S1x128 ![1] bcast_S128_S1x128_1 b)

/-- The same over 40 features. -/
def biasReluRow40 (a : Vec F S100000x40 .f32) (b : Vec F S1x40 .f32) : Vec F S100000x40 .f32 :=
  maximumf (addf a (broadcastInDim S100000x40 ![0, 1] bcast_S1x40_S100000x40_0_1 b))
    (broadcastInDim S100000x40 ![] bcast_S_S100000x40 (constant S_ .f32 0x00000000#32))

def biasRelu40 (a : Vec F S100000x40 .f32) (b : Vec F S40 .f32) : Vec F S100000x40 .f32 :=
  biasReluRow40 a (broadcastInDim S1x40 ![1] bcast_S40_S1x40_1 b)

/-! ## The closing log-softmax over each row of 40 -/

/-- Each row's maximum (taken from minus infinity, and once more against minus infinity as the reference does). -/
def rowMax (y : Vec F S100000x40 .f32) : Vec F S100000 .f32 :=
  maximumf (broadcastInDim S100000 ![] bcast_S_S100000 (constant S_ .f32 0xFF800000#32))
    (Host.reduce FloatOps.maximumf y (constant S_ .f32 0xFF800000#32) reducesTo_S100000x40_S100000_d1 h_S_)

/-- Each entry less its row's maximum. -/
def shifted (y : Vec F S100000x40 .f32) : Vec F S100000x40 .f32 :=
  subf y (broadcastInDim S100000x40 ![0, 1] bcast_S100000x1_S100000x40_0_1
    (broadcastInDim S100000x1 ![0] bcast_S100000_S100000x1_0 (rowMax y)))

/-- Each shifted entry less the logarithm of its row's sum of exponentials. -/
def logSoftmax40 (y : Vec F S100000x40 .f32) : Vec F S100000x40 .f32 :=
  subf (shifted y) (broadcastInDim S100000x40 ![0, 1] bcast_S100000x1_S100000x40_0_1
    (Host.log (broadcastInDim S100000x1 ![0] bcast_S100000_S100000x1_0
      (Host.reduceAdd (Host.exp (shifted y)) (constant S_ .f32 0x00000000#32) reducesTo_S100000x40_S100000_d1 h_S_))))

/-! ## The whole network -/

/-- A hidden layer: the linear map, the message passing, the bias and the clamp. -/
def hidden (x : Vec F S100000x128 .f32) (e : Vec F S2x600000 .i32) (w : Vec F S128x128 .f32) (b : Vec F S128 .f32) :
    Vec F S100000x128 .f32 :=
  biasRelu128 (agg128 e (lin128 x w)) b

/-- The network's result: 40 log-probabilities per node. -/
def gcn (x : Vec F S100000x128 .f32) (e : Vec F S2x600000 .i32) (w1 : Vec F S128x128 .f32) (b1 : Vec F S128 .f32)
    (w2 : Vec F S128x128 .f32) (b2 : Vec F S128 .f32) (w3 : Vec F S128x40 .f32) (b3 : Vec F S40 .f32) : Vec F S100000x40 .f32 :=
  logSoftmax40 (biasRelu40 (agg40 e (lin40 (hidden (hidden x e w1 b1) e w2 b2) w3)) b3)

end Cert.Gcn

end
-- ==== Proof.KernelHost.lean ====
/-
  The host operations of the kernel program, stretch by stretch.

  Before the first pipeline the program forms, from the edge list, the source and target columns, the degrees and the
  edges' weights (the functions srcIdx, dstIdx, edgeNorm of the specification). Between the pipelines each layer's
  stretch gathers the rows of the linear map's result by the source column, scales them by the edges' weights and sums
  them into the target rows (aggOf128, aggOf40), and lays the layer's bias vector out as one row. No later stretch or
  pipeline writes the columns, the weights or an argument, so each keeps its value up to where it is read.
-/
import proofs.«142489_j22153441312995_1_alg».proof.Proof.Gen.KernelIdeal.Frame
import proofs.«142489_j22153441312995_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## A bias vector laid out as one row -/

/-- A vector of 128 cast to one row of 128 is the vector broadcast along a new leading axis. -/
theorem biasRow128 {α : Type} (b : S128.Idx → α) (h : S128.ShapeCasts S1x128)
    (h' : S128.BroadcastsInDim S1x128 (![1] : Fin 1 → Fin S1x128.rank)) :
    shapeCast S1x128 b h = broadcastInDim S1x128 ![1] h' b := by
  funext i
  obtain ⟨u, q, rfl⟩ : ∃ (u : Fin 1) (q : Fin 128), i = ix2 u q := ⟨i 0, i 1, eq_ix2 i⟩
  rw [shapeCast_a_1a_apply, broadcastInDim_apply ![1] h' b (ix2 u q) (ix1 q) (fun a => match a with
    | ⟨0, _⟩ => by show q.val = if (128 : Nat) = 1 then 0 else q.val; rw [if_neg (by decide)])]

/-- The same for a vector of 40. -/
theorem biasRow40 {α : Type} (b : S40.Idx → α) (h : S40.ShapeCasts S1x40)
    (h' : S40.BroadcastsInDim S1x40 (![1] : Fin 1 → Fin S1x40.rank)) :
    shapeCast S1x40 b h = broadcastInDim S1x40 ![1] h' b := by
  funext i
  obtain ⟨u, q, rfl⟩ : ∃ (u : Fin 1) (q : Fin 40), i = ix2 u q := ⟨i 0, i 1, eq_ix2 i⟩
  rw [shapeCast_a_1a_apply, broadcastInDim_apply ![1] h' b (ix2 u q) (ix1 q) (fun a => match a with
    | ⟨0, _⟩ => by show q.val = if (40 : Nat) = 1 then 0 else q.val; rw [if_neg (by decide)])]

/-! ## What each layer's stretch writes, and so what it keeps -/

abbrev hostOps1_W : List (Ref sig .tc) := [main_c_7, main_v33, main_v34, main_c_8, main_v35, main_v36, main_v37, main_v38, main_v39, main_v40, main_v41, main_v42, main_cst_9, main_v43, main_v44, main_v45, main_v46]
abbrev hostOps3_W : List (Ref sig .tc) := [main_c_10, main_v49, main_v50, main_c_11, main_v51, main_v52, main_v53, main_v54, main_v55, main_v56, main_v57, main_v58, main_cst_12, main_v59, main_v60, main_v61, main_v62]
abbrev hostOps5_W : List (Ref sig .tc) := [main_c_13, main_v65, main_v66, main_c_14, main_v67, main_v68, main_v69, main_v70, main_v71, main_v72, main_v73, main_v74, main_cst_15, main_v75, main_v76, main_v77, main_v78]

theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

theorem keep1 (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h
theorem keep3 (W : Valuation τ sig (Elt F)) (r : Ref sig .tc) (h : r ∉ hostOps3_W) :
    StableHlo.after hostOps3 W (Proc.devRef .tc r) = W (Proc.devRef .tc r) :=
  StableHlo.after_of_writes_sub hostOps3 W hostOps3_writes h
theorem keep5 (W : Valuation τ sig (Elt F)) (r : Ref sig .tc) (h : r ∉ hostOps5_W) :
    StableHlo.after hostOps5 W (Proc.devRef .tc r) = W (Proc.devRef .tc r) :=
  StableHlo.after_of_writes_sub hostOps5 W hostOps5_writes h

/-! ## What each layer's stretch computes -/

/-- Layer 1's stretch: the message passing of the first linear map's result. -/
theorem stretch1_agg (W : Valuation τ sig (Elt F)) :
    StableHlo.after hostOps1 W (Proc.devRef .tc main_v45)
      = Cert.Gcn.aggOf128 (W (Proc.devRef .tc main_v3)) (W (Proc.devRef .tc main_v6)) (W (Proc.devRef .tc main_v31)) (W (Proc.devRef .tc main_v32)) := by
  dsimp only [hostOps1]
  after_results_simp
  rfl

/-- Layer 1's stretch: its bias as one row. -/
theorem stretch1_bias (W : Valuation τ sig (Elt F)) :
    StableHlo.after hostOps1 W (Proc.devRef .tc main_v46)
      = broadcastInDim S1x128 ![1] Cert.ReferenceIdeal.Gen.bcast_S128_S1x128_1 (W (Proc.devRef .tc main_arg3)) := by
  dsimp only [hostOps1]
  after_results
  exact biasRow128 _ _ _

theorem stretch3_agg (W : Valuation τ sig (Elt F)) :
    StableHlo.after hostOps3 W (Proc.devRef .tc main_v61)
      = Cert.Gcn.aggOf128 (W (Proc.devRef .tc main_v3)) (W (Proc.devRef .tc main_v6)) (W (Proc.devRef .tc main_v31)) (W (Proc.devRef .tc main_v48)) := by
  dsimp only [hostOps3]
  after_results_simp
  rfl

theorem stretch3_bias (W : Valuation τ sig (Elt F)) :
    StableHlo.after hostOps3 W (Proc.devRef .tc main_v62)
      = broadcastInDim S1x128 ![1] Cert.ReferenceIdeal.Gen.bcast_S128_S1x128_1 (W (Proc.devRef .tc main_arg5)) := by
  dsimp only [hostOps3]
  after_results
  exact biasRow128 _ _ _

theorem stretch5_agg (W : Valuation τ sig (Elt F)) :
    StableHlo.after hostOps5 W (Proc.devRef .tc main_v77)
      = Cert.Gcn.aggOf40 (W (Proc.devRef .tc main_v3)) (W (Proc.devRef .tc main_v6)) (W (Proc.devRef .tc main_v31)) (W (Proc.devRef .tc main_v64)) := by
  dsimp only [hostOps5]
  after_results_simp
  rfl

theorem stretch5_bias (W : Valuation τ sig (Elt F)) :
    StableHlo.after hostOps5 W (Proc.devRef .tc main_v78)
      = broadcastInDim S1x40 ![1] Cert.ReferenceIdeal.Gen.bcast_S40_S1x40_1 (W (Proc.devRef .tc main_arg7)) := by
  dsimp only [hostOps5]
  after_results
  exact biasRow40 _ _ _

/-! ## The edge prefix: what the first pipeline is entered with -/

variable (m : (ℓ : Loc nD τ sig) → Buf (Elt F) ℓ) (ρ : Dev nD → PrngReg)

theorem pre_src (c : Dev nD) : W3 m ρ c (Proc.devRef .tc main_v3) = Cert.Gcn.srcIdx (m ((c : Thread nD τ).loc main_arg1)) := by
  dsimp only [W3, W2, W1, W0, hostOps0, hostOps0_1, hostOps0_2]
  after_results
  rfl

theorem pre_dst (c : Dev nD) : W3 m ρ c (Proc.devRef .tc main_v6) = Cert.Gcn.dstIdx (m ((c : Thread nD τ).loc main_arg1)) := by
  dsimp only [W3, W2, W1, W0, hostOps0, hostOps0_1, hostOps0_2]
  after_results
  rfl

theorem pre_nrm (c : Dev nD) : W3 m ρ c (Proc.devRef .tc main_v31) = Cert.Gcn.edgeNorm (m ((c : Thread nD τ).loc main_arg1)) := by
  dsimp only [W3, W2, W1, W0, hostOps0, hostOps0_1, hostOps0_2]
  after_results_simp
  rfl

abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
abbrev hostOps0_1_W : List (Ref sig .tc) := [main_call0_v0, main_call0_v1, main_v16]
abbrev hostOps0_2_W : List (Ref sig .tc) := [main_c, main_v17, main_v18, main_c_4, main_v19, main_v20, main_v21, main_v22, main_v23, main_c_5, main_v24, main_v25, main_c_6, main_v26, main_v27, main_v28, main_v29, main_v30, main_v31]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer none of the three stretches before the first pipeline writes is entered with its launch contents. -/
theorem pre_keep (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 (W2 m ρ c) hostOps0_2_writes h2).trans
    ((StableHlo.after_of_writes_sub hostOps0_1 (W1 m ρ c) hostOps0_1_writes h1).trans
      ((StableHlo.after_of_writes_sub hostOps0 (W0 m ρ c) hostOps0_writes h0).trans rfl))

end Cert.KernelIdeal.Host

end
-- ==== Proof.SpecIndex.lean ====
/-
  The three pieces of a layer that the kernel program computes in pipelines, read at an index of the extended reals:
  the bias and clamp as a maximum of a sum, the matrix product as a sum over the 128 contracted coordinates, the
  log-softmax through its row's maximum and its row's sum of exponentials.
-/
import proofs.«142489_j22153441312995_1_alg».proof.Proof.Spec

noncomputable section

namespace Cert.Gcn

open Cert.ReferenceIdeal Cert.ReferenceIdeal.Gen Idealize.ShloMosaic Idealize.ShloMosaic.ValueIdx

/-! ## The bias and the clamp -/

/-- The index of the bias row's entry under the column of a node array's index. -/
abbrev rowIdx128 (i : S100000x128.Idx) : S1x128.Idx := fun a => match a with
  | ⟨0, _⟩ => ⟨0, Nat.one_pos⟩
  | ⟨1, _⟩ => ⟨(i 1).val, (i 1).isLt⟩

abbrev rowIdx40 (i : S100000x40.Idx) : S1x40.Idx := fun a => match a with
  | ⟨0, _⟩ => ⟨0, Nat.one_pos⟩
  | ⟨1, _⟩ => ⟨(i 1).val, (i 1).isLt⟩

/-- An entry of the biased and clamped array: the larger of zero and the entry plus its column's bias. -/
theorem biasReluRow128_apply (a : FVec Ideal S100000x128 .f32) (b : FVec Ideal S1x128 .f32) (i : S100000x128.Idx) :
    biasReluRow128 (F := Ideal) a b i = max (a i + b (rowIdx128 i)) (Ideal.ofBits .f32 0x00000000#32) := by
  unfold biasReluRow128
  rw [maximumf_apply, addf_apply,
    broadcastInDim_apply ![0, 1] bcast_S1x128_S100000x128_0_1 b i (rowIdx128 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]
  rfl

theorem biasReluRow40_apply (a : FVec Ideal S100000x40 .f32) (b : FVec Ideal S1x40 .f32) (i : S100000x40.Idx) :
    biasReluRow40 (F := Ideal) a b i = max (a i + b (rowIdx40 i)) (Ideal.ofBits .f32 0x00000000#32) := by
  unfold biasReluRow40
  rw [maximumf_apply, addf_apply,
    broadcastInDim_apply ![0, 1] bcast_S1x40_S100000x40_0_1 b i (rowIdx40 i) (fun a => match a with
      | ⟨0, _⟩ => by show 0 = if (1 : Nat) = 1 then 0 else (i 0).val; rw [if_pos rfl]
      | ⟨1, _⟩ => by show (i 1).val = if (40 : Nat) = 1 then 0 else (i 1).val; rw [if_neg (by decide)])]
  rfl

/-! ## The matrix products -/

/-- Row i 0 of the left operand at the contracted coordinate k. -/
abbrev lhsIdx128 (i : S100000x128.Idx) (k : Fin 128) : S100000x128.Idx := fun a => match a with
  | ⟨0, _⟩ => ⟨(i 0).val, (i 0).isLt⟩
  | ⟨1, _⟩ => ⟨k.val, k.isLt⟩

/-- Column i 1 of the right operand at the contracted coordinate k. -/
abbrev rhsIdx128 (i : S100000x128.Idx) (k : Fin 128) : S128x128.Idx := fun a => match a with
  | ⟨0, _⟩ => ⟨k.val, k.isLt⟩
  | ⟨1, _⟩ => ⟨(i 1).val, (i 1).isLt⟩

theorem lin128_lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lin128_lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem lin128_rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem lin128_rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- An entry of the product with a 128 × 128 matrix: the sum over the 128 contracted coordinates of the products. -/
theorem lin128_apply (x : FVec Ideal S100000x128 .f32) (w : FVec Ideal S128x128 .f32) (i : S100000x128.Idx) :
    lin128 (F := Ideal) x w i = ∑ k : Fin 128, x (lhsIdx128 i k) * w (rhsIdx128 i k) := by
  unfold lin128
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lhsIdx128 i k := funext fun a => Fin.ext (by
    match a with
    | ⟨0, _⟩ => exact lin128_lhs_0 _ _
    | ⟨1, _⟩ => exact (lin128_lhs_1 _ _).trans hk)
  have er : dot_S100000x128_S128x128_S100000x128_1_0_0_1_n_n.rhsIdx i ((ValueIdx.contrEquiv1 dot_S100000x128_S128x128_S100000x128_1_0_0_1_n_n 128 rfl rfl).symm k) = rhsIdx128 i k := funext fun a => Fin.ext (by
    match a with
    | ⟨0, _⟩ => exact (lin128_rhs_0 _ _).trans hk
    | ⟨1, _⟩ => exact lin128_rhs_1 _ _)
  rw [el, er]

/-- Row i 0 of the left operand at the contracted coordinate k, for the 40-column product. -/
abbrev lhsIdx40 (i : S100000x40.Idx) (k : Fin 128) : S100000x128.Idx := fun a => match a with
  | ⟨0, _⟩ => ⟨(i 0).val, (i 0).isLt⟩
  | ⟨1, _⟩ => ⟨k.val, k.isLt⟩

abbrev rhsIdx40 (i : S100000x40.Idx) (k : Fin 128) : S128x40.Idx := fun a => match a with
  | ⟨0, _⟩ => ⟨k.val, k.isLt⟩
  | ⟨1, _⟩ => ⟨(i 1).val, (i 1).isLt⟩

theorem lin40_lhs_0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem lin40_lhs_1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q
theorem lin40_rhs_0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q
theorem lin40_rhs_1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- An entry of the product with a 128 × 40 matrix. -/
theorem lin40_apply (x : FVec Ideal S100000x128 .f32) (w : FVec Ideal S128x40 .f32) (i : S100000x40.Idx) :
    lin40 (F := Ideal) x w i = ∑ k : Fin 128, x (lhsIdx40 i k) * w (rhsIdx40 i k) := by
  unfold lin40
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx i ((ValueIdx.contrEquiv1 dot_S100000x128_S128x40_S100000x40_1_0_0_1_n_n 128 rfl rfl).symm k) = lhsIdx40 i k := funext fun a => Fin.ext (by
    match a with
    | ⟨0, _⟩ => exact lin40_lhs_0 _ _
    | ⟨1, _⟩ => exact (lin40_lhs_1 _ _).trans hk)
  have er : dot_S100000x128_S128x40_S100000x40_1_0_0_1_n_n.rhsIdx i ((ValueIdx.contrEquiv1 dot_S100000x128_S128x40_S100000x40_1_0_0_1_n_n 128 rfl rfl).symm k) = rhsIdx40 i k := funext fun a => Fin.ext (by
    match a with
    | ⟨0, _⟩ => exact (lin40_rhs_0 _ _).trans hk
    | ⟨1, _⟩ => exact lin40_rhs_1 _ _)
  rw [el, er]

end Cert.Gcn

end
-- ==== Proof.RegionMatmul0.lean ====
/-
  What the first matrix-product pipeline of the kernel program leaves in its output array.

  Each of the 20 grid points takes a block of 5000 rows of the 100000 × 128 node features and the whole 128 × 128
  weight matrix and stores their product (the conversions to the narrower float format are the identity on the
  extended reals, and the accumulator starts at zero). An entry of the block is the sum over the 128 contracted
  coordinates of the row's entries times the column's, so block t of the output holds rows 5000·t … 5000·t + 4999 of
  the whole product Cert.Gcn.lin128 of the two input arrays, and the 20 blocks tile the array.
-/
import proofs.«142489_j22153441312995_1_alg».proof.Proof.Gen.KernelIdeal.Frame
import proofs.«142489_j22153441312995_1_alg».proof.Proof.SpecIndex
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionMM0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The left block's entry in the row of a block index at the contracted coordinate k. -/
abbrev lhsBlk (j : S5000x128.Idx) (k : Fin 128) : S5000x128.Idx := fun a => match a with
  | ⟨0, _⟩ => ⟨(j 0).val, (j 0).isLt⟩
  | ⟨1, _⟩ => ⟨k.val, k.isLt⟩

/-- The weight matrix's entry in the column of a block index at the contracted coordinate k. -/
abbrev rhsBlk (j : S5000x128.Idx) (k : Fin 128) : S128x128.Idx := fun a => match a with
  | ⟨0, _⟩ => ⟨k.val, k.isLt⟩
  | ⟨1, _⟩ => ⟨(j 1).val, (j 1).isLt⟩

theorem blk_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blk_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem blk_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem blk_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at a block index: the sum over the contracted coordinates of the products. -/
theorem pay_apply (x0 : FVec Ideal S5000x128 .f32) (x1 : FVec Ideal S128x128 .f32) (j : S5000x128.Idx) :
    k0_pay1 (F := Ideal) x0 x1 j = ∑ k : Fin 128, x0 (lhsBlk j k) * x1 (rhsBlk j k) := by
  unfold k0_pay1
  try simp only [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lhsBlk j k := funext fun a => Fin.ext (by
    match a with
    | ⟨0, _⟩ => exact blk_lhs_0 _ _
    | ⟨1, _⟩ => exact (blk_lhs_1 _ _).trans hk)
  have er : dot_S5000x128_S128x128_S5000x128_1_0_0_1_n_n.rhsIdx j ((ValueIdx.contrEquiv1 dot_S5000x128_S128x128_S5000x128_1_0_0_1_n_n 128 rfl rfl).symm k) = rhsBlk j k := funext fun a => Fin.ext (by
    match a with
    | ⟨0, _⟩ => exact (blk_rhs_0 _ _).trans hk
    | ⟨1, _⟩ => exact blk_rhs_1 _ _)
  rw [el, er]
  rfl

/-- The printed index maps over the 20 points: the feature block moves with the output block, the weights stay. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two input arrays as the region finds them, at their literal types. -/
abbrev xin (c : Dev nD) : FVec Ideal S100000x128 .f32 := V c (Pipeline.arrRef spec0 0)
abbrev win (c : Dev nD) : FVec Ideal S128x128 .f32 := V c (Pipeline.arrRef spec0 1)

/-- What the array ends holding: the whole product. -/
abbrev G (c : Dev nD) : FVec Ideal S100000x128 .f32 := Cert.Gcn.lin128 (F := Ideal) (xin V c) (win V c)

/-- Point t writes back block t of the whole product. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := idx_facts t
  funext j
  show k0_pay1 (F := Ideal) (iblk0 V c 0 t) (iblk0 V c 1 t) j = G V c (((cfg0.win 2).blk t).view.emb j)
  refine (pay_apply (iblk0 V c 0 t) (iblk0 V c 1 t) j).trans ?_
  refine Eq.trans ?_ (Cert.Gcn.lin128_apply (xin V c) (win V c) (((cfg0.win 2).blk t).view.emb j)).symm
  refine Finset.sum_congr rfl fun k _ => ?_
  show xin V c (((cfg0.win 0).blk t).view.emb (lhsBlk j k)) * win V c (((cfg0.win 1).blk t).view.emb (rhsBlk j k))
    = xin V c (Cert.Gcn.lhsIdx128 (((cfg0.win 2).blk t).view.emb j) k) * win V c (Cert.Gcn.rhsIdx128 (((cfg0.win 2).blk t).view.emb j) k)
  have h0 : ((cfg0.win 0).blk t).view.emb (lhsBlk j k) = Cert.Gcn.lhsIdx128 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rhsBlk j k) = Cert.Gcn.rhsIdx128 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index is in the block of the point its row falls in. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [mem_blk]
  obtain ⟨e0, e1, e2, e3, e4, e5⟩ := idx_facts ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The first matrix-product pipeline's output array after the run. -/
theorem region_value (c : Dev nD) : (dat0 (F := Ideal) V c).arrAt 2 cfg0.N = G V c :=
  (dat0 V c).arrAt_eq_of_cover 2 (G V c) (fun t _ => flushed_eq V c t) cover

end Cert.KernelIdeal.RegionMM0

end
-- ==== Proof.RegionMatmul2.lean ====
/-
  What the second matrix-product pipeline of the kernel program leaves in its output array.

  Each of the 20 grid points takes a block of 5000 rows of the 100000 × 128 node features and the whole 128 × 128
  weight matrix and stores their product (the conversions to the narrower float format are the identity on the
  extended reals, and the accumulator starts at zero). An entry of the block is the sum over the 128 contracted
  coordinates of the row's entries times the column's, so block t of the output holds rows 5000·t … 5000·t + 4999 of
  the whole product Cert.Gcn.lin128 of the two input arrays, and the 20 blocks tile the array.
-/
import proofs.«142489_j22153441312995_1_alg».proof.Proof.Gen.KernelIdeal.Frame
import proofs.«142489_j22153441312995_1_alg».proof.Proof.SpecIndex
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionMM2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The left block's entry in the row of a block index at the contracted coordinate k. -/
abbrev lhsBlk (j : S5000x128.Idx) (k : Fin 128) : S5000x128.Idx := fun a => match a with
  | ⟨0, _⟩ => ⟨(j 0).val, (j 0).isLt⟩
  | ⟨1, _⟩ => ⟨k.val, k.isLt⟩

/-- The weight matrix's entry in the column of a block index at the contracted coordinate k. -/
abbrev rhsBlk (j : S5000x128.Idx) (k : Fin 128) : S128x128.Idx := fun a => match a with
  | ⟨0, _⟩ => ⟨k.val, k.isLt⟩
  | ⟨1, _⟩ => ⟨(j 1).val, (j 1).isLt⟩

theorem blk_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blk_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem blk_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem blk_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at a block index: the sum over the contracted coordinates of the products. -/
theorem pay_apply (x0 : FVec Ideal S5000x128 .f32) (x1 : FVec Ideal S128x128 .f32) (j : S5000x128.Idx) :
    k2_pay1 (F := Ideal) x0 x1 j = ∑ k : Fin 128, x0 (lhsBlk j k) * x1 (rhsBlk j k) := by
  unfold k2_pay1
  try simp only [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lhsBlk j k := funext fun a => Fin.ext (by
    match a with
    | ⟨0, _⟩ => exact blk_lhs_0 _ _
    | ⟨1, _⟩ => exact (blk_lhs_1 _ _).trans hk)
  have er : dot_S5000x128_S128x128_S5000x128_1_0_0_1_n_n.rhsIdx j ((ValueIdx.contrEquiv1 dot_S5000x128_S128x128_S5000x128_1_0_0_1_n_n 128 rfl rfl).symm k) = rhsBlk j k := funext fun a => Fin.ext (by
    match a with
    | ⟨0, _⟩ => exact (blk_rhs_0 _ _).trans hk
    | ⟨1, _⟩ => exact blk_rhs_1 _ _)
  rw [el, er]
  rfl

/-- The printed index maps over the 20 points: the feature block moves with the output block, the weights stay. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The two input arrays as the region finds them, at their literal types. -/
abbrev xin (c : Dev nD) : FVec Ideal S100000x128 .f32 := V c (Pipeline.arrRef spec2 0)
abbrev win (c : Dev nD) : FVec Ideal S128x128 .f32 := V c (Pipeline.arrRef spec2 1)

/-- What the array ends holding: the whole product. -/
abbrev G (c : Dev nD) : FVec Ideal S100000x128 .f32 := Cert.Gcn.lin128 (F := Ideal) (xin V c) (win V c)

/-- Point t writes back block t of the whole product. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := idx_facts t
  funext j
  show k2_pay1 (F := Ideal) (iblk2 V c 0 t) (iblk2 V c 1 t) j = G V c (((cfg2.win 2).blk t).view.emb j)
  refine (pay_apply (iblk2 V c 0 t) (iblk2 V c 1 t) j).trans ?_
  refine Eq.trans ?_ (Cert.Gcn.lin128_apply (xin V c) (win V c) (((cfg2.win 2).blk t).view.emb j)).symm
  refine Finset.sum_congr rfl fun k _ => ?_
  show xin V c (((cfg2.win 0).blk t).view.emb (lhsBlk j k)) * win V c (((cfg2.win 1).blk t).view.emb (rhsBlk j k))
    = xin V c (Cert.Gcn.lhsIdx128 (((cfg2.win 2).blk t).view.emb j) k) * win V c (Cert.Gcn.rhsIdx128 (((cfg2.win 2).blk t).view.emb j) k)
  have h0 : ((cfg2.win 0).blk t).view.emb (lhsBlk j k) = Cert.Gcn.lhsIdx128 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (rhsBlk j k) = Cert.Gcn.rhsIdx128 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every index is in the block of the point its row falls in. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  refine ⟨⟨(i 0).val / 5000, by show (i 0).val / 5000 < 20; omega⟩, flush2_2 _, ?_⟩
  rw [mem_blk]
  obtain ⟨e0, e1, e2, e3, e4, e5⟩ := idx_facts ⟨(i 0).val / 5000, by show (i 0).val / 5000 < 20; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-- The second matrix-product pipeline's output array after the run. -/
theorem region_value (c : Dev nD) : (dat2 (F := Ideal) V c).arrAt 2 cfg2.N = G V c :=
  (dat2 V c).arrAt_eq_of_cover 2 (G V c) (fun t _ => flushed_eq V c t) cover

end Cert.KernelIdeal.RegionMM2

end
-- ==== Proof.RegionMatmul4.lean ====
/-
  What the third matrix-product pipeline of the kernel program leaves in its output array.

  Each of the 20 grid points takes a block of 5000 rows of the 100000 × 128 hidden features and the whole 128 × 40
  weight matrix and stores their product (the conversions to the narrower float format are the identity on the
  extended reals, and the accumulator starts at zero). An entry of the block is the sum over the 128 contracted
  coordinates of the row's entries times the column's, so block t of the output holds rows 5000·t … 5000·t + 4999 of
  the whole product Cert.Gcn.lin40 of the two input arrays, and the 20 blocks tile the 100000 × 40 array.
-/
import proofs.«142489_j22153441312995_1_alg».proof.Proof.Gen.KernelIdeal.Frame
import proofs.«142489_j22153441312995_1_alg».proof.Proof.SpecIndex
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionMM4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The left block's entry in the row of an output block index at the contracted coordinate k. -/
abbrev lhsBlk (j : S5000x40.Idx) (k : Fin 128) : S5000x128.Idx := fun a => match a with
  | ⟨0, _⟩ => ⟨(j 0).val, (j 0).isLt⟩
  | ⟨1, _⟩ => ⟨k.val, k.isLt⟩

/-- The weight matrix's entry in the column of an output block index at the contracted coordinate k. -/
abbrev rhsBlk (j : S5000x40.Idx) (k : Fin 128) : S128x40.Idx := fun a => match a with
  | ⟨0, _⟩ => ⟨k.val, k.isLt⟩
  | ⟨1, _⟩ => ⟨(j 1).val, (j 1).isLt⟩

theorem blk_lhs_0 (j : S5000x40.Idx) (q : dot_S5000x128_S128x40_S5000x40_1_0_0_1_n_n.contr.Idx) :
    (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem blk_lhs_1 (j : S5000x40.Idx) (q : dot_S5000x128_S128x40_S5000x40_1_0_0_1_n_n.contr.Idx) :
    (dot_S5000x128_S128x40_S5000x40_1_0_0_1_n_n.lhsIdx j q 1).val = (q ⟨0, by decide⟩).val :=
  dot_S5000x128_S128x40_S5000x40_1_0_0_1_n_n.lhsIdx_val_of_single rfl j q
theorem blk_rhs_0 (j : S5000x40.Idx) (q : dot_S5000x128_S128x40_S5000x40_1_0_0_1_n_n.contr.Idx) :
    (dot_S5000x128_S128x40_S5000x40_1_0_0_1_n_n.rhsIdx j q 0).val = (q ⟨0, by decide⟩).val :=
  dot_S5000x128_S128x40_S5000x40_1_0_0_1_n_n.rhsIdx_val_of_single rfl j q
theorem blk_rhs_1 (j : S5000x40.Idx) (q : dot_S5000x128_S128x40_S5000x40_1_0_0_1_n_n.contr.Idx) :
    (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The body's stored value at a block index: the sum over the contracted coordinates of the products. -/
theorem pay_apply (x0 : FVec Ideal S5000x128 .f32) (x1 : FVec Ideal S128x40 .f32) (j : S5000x40.Idx) :
    k4_pay1 (F := Ideal) x0 x1 j = ∑ k : Fin 128, x0 (lhsBlk j k) * x1 (rhsBlk j k) := by
  unfold k4_pay1
  simp only [shapeCast_self]
  simp only [matmul]
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx j ((ValueIdx.contrEquiv1 dot_S5000x128_S128x40_S5000x40_1_0_0_1_n_n 128 rfl rfl).symm k) = lhsBlk j k := funext fun a => Fin.ext (by
    match a with
    | ⟨0, _⟩ => exact blk_lhs_0 _ _
    | ⟨1, _⟩ => exact (blk_lhs_1 _ _).trans hk)
  have er : dot_S5000x128_S128x40_S5000x40_1_0_0_1_n_n.rhsIdx j ((ValueIdx.contrEquiv1 dot_S5000x128_S128x40_S5000x40_1_0_0_1_n_n 128 rfl rfl).symm k) = rhsBlk j k := funext fun a => Fin.ext (by
    match a with
    | ⟨0, _⟩ => exact (blk_rhs_0 _ _).trans hk
    | ⟨1, _⟩ => exact blk_rhs_1 _ _)
  rw [el, er]
  rfl

/-- The printed index maps over the 20 points: the feature block moves with the output block, the weights stay. -/
theorem idx_facts : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The two input arrays as the region finds them, at their literal types. -/
abbrev xin (c : Dev nD) : FVec Ideal S100000x128 .f32 := V c (Pipeline.arrRef spec4 0)
abbrev win (c : Dev nD) : FVec Ideal S128x40 .f32 := V c (Pipeline.arrRef spec4 1)

/-- What the array ends holding: the whole product. -/
abbrev G (c : Dev nD) : FVec Ideal S100000x40 .f32 := Cert.Gcn.lin40 (F := Ideal) (xin V c) (win V c)

/-- Point t writes back block t of the whole product. -/
theorem flushed_eq (c : Dev nD) (t : Fin cfg4.N) :
    (dat4 (F := Ideal) V c).flushed 2 t = ((cfg4.win 2).blk t).view.read (Elt Ideal) (G V c) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x40) zero_offsets]
  obtain ⟨e0, e1, e2, e3, e4, e5⟩ := idx_facts t
  funext j
  show k4_pay1 (F := Ideal) (iblk4 V c 0 t) (iblk4 V c 1 t) j = G V c (((cfg4.win 2).blk t).view.emb j)
  refine (pay_apply (iblk4 V c 0 t) (iblk4 V c 1 t) j).trans ?_
  refine Eq.trans ?_ (Cert.Gcn.lin40_apply (xin V c) (win V c) (((cfg4.win 2).blk t).view.emb j)).symm
  refine Finset.sum_congr rfl fun k _ => ?_
  show xin V c (((cfg4.win 0).blk t).view.emb (lhsBlk j k)) * win V c (((cfg4.win 1).blk t).view.emb (rhsBlk j k))
    = xin V c (Cert.Gcn.lhsIdx40 (((cfg4.win 2).blk t).view.emb j) k) * win V c (Cert.Gcn.rhsIdx40 (((cfg4.win 2).blk t).view.emb j) k)
  have h0 : ((cfg4.win 0).blk t).view.emb (lhsBlk j k) = Cert.Gcn.lhsIdx40 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (rhsBlk j k) = Cert.Gcn.rhsIdx40 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 40 + 1 * (j 1).val = win4_2.index t (1 : Fin 2) * 40 + 1 * (j 1).val; omega
  rw [h0, h1]

/-- An index of the array is in point t's block iff each coordinate is in the block's range on its axis. -/
theorem mem_blk (t : Fin cfg4.N) (i : S100000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v64).slice (win4_2.rect t)).set ↔ _
  rw [View.set_slice_whole, Rect.mem_set_unit]
  exact Iff.rfl

/-- Every index is in the block of the point its row falls in. -/
theorem cover (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  refine ⟨⟨(i 0).val / 5000, by show (i 0).val / 5000 < 20; omega⟩, flush4_2 _, ?_⟩
  rw [mem_blk]
  obtain ⟨e0, e1, e2, e3, e4, e5⟩ := idx_facts ⟨(i 0).val / 5000, by show (i 0).val / 5000 < 20; omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 40 ≤ (i 1).val ∧ (i 1).val < win4_2.index _ (1 : Fin 2) * 40 + 40; rw [e5]; omega

/-- The third matrix-product pipeline's output array after the run. -/
theorem region_value (c : Dev nD) : (dat4 (F := Ideal) V c).arrAt 2 cfg4.N = G V c :=
  (dat4 V c).arrAt_eq_of_cover 2 (G V c) (fun t _ => flushed_eq V c t) cover

end Cert.KernelIdeal.RegionMM4

end
-- ==== Proof.RegionBiasRelu.lean ====
/-
  What the two bias-and-clamp pipelines of the kernel program leave in their output arrays.

  Each of the 20 grid points takes a block of 5000 rows of the 100000 × 128 input and the whole 1 × 128 bias row, and
  stores, entry by entry, the larger of zero and the entry plus its column's bias. Block t of the output holds rows
  5000·t … 5000·t + 4999, so the 20 blocks tile the array, and the array after the run is the whole-array function
  Cert.Gcn.biasReluRow128 of the two input arrays as the region found them.
-/
import proofs.«142489_j22153441312995_1_alg».proof.Proof.Gen.KernelIdeal.Frame
import proofs.«142489_j22153441312995_1_alg».proof.Proof.SpecIndex
import Idealize.ShloMosaic.Lib.Pipeline.Value
import Idealize.ShloMosaic.Lib.ValueIdx
import Idealize.ShloMosaic.Lib.ValueLayout

set_option maxRecDepth 16384

noncomputable section

namespace Cert.KernelIdeal.RegionBR

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row's entry under the column of a block index. -/
abbrev biasIdx (j : S5000x128.Idx) : S1x128.Idx := fun a => match a with
  | ⟨0, _⟩ => ⟨0, Nat.one_pos⟩
  | ⟨1, _⟩ => ⟨(j 1).val, (j 1).isLt⟩

/-- The body's stored value at a block index: the larger of zero and the entry plus its column's bias. -/
theorem pay_apply (x0 : FVec Ideal S5000x128 .f32) (x1 : FVec Ideal S1x128 .f32) (j : S5000x128.Idx) :
    k1_pay1 (F := Ideal) x0 x1 j = max (x0 j + x1 (biasIdx j)) (Ideal.ofBits .f32 0x00000000#32) := by
  unfold k1_pay1
  simp only [shapeCast_self]
  rw [maximumf_apply, addf_apply,
    broadcastTo_apply x1 broadcasts_S1x128_S5000x128 j (biasIdx j) (fun a => match a with
      | ⟨0, _⟩ => by show 0 = if (1 : Nat) = 1 then 0 else (j ⟨0 + (2 - 2), _⟩).val; rw [if_pos rfl]
      | ⟨1, _⟩ => by show (j 1).val = if (128 : Nat) = 1 then 0 else (j ⟨1 + (2 - 2), _⟩).val; rw [if_neg (by decide)]; rfl)]
  rfl

/-! ## Pipeline 1 -/

/-- The printed index maps over the 20 points: the input block moves with the output block, the bias row stays. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The two input arrays as the region finds them, at their literal types. -/
abbrev xin1 (c : Dev nD) : FVec Ideal S100000x128 .f32 := V c (Pipeline.arrRef spec1 0)
abbrev bin1 (c : Dev nD) : FVec Ideal S1x128 .f32 := V c (Pipeline.arrRef spec1 1)

/-- What the array ends holding, as a function of the two input arrays. -/
abbrev G1 (c : Dev nD) : FVec Ideal S100000x128 .f32 :=
  Cert.Gcn.biasReluRow128 (F := Ideal) (xin1 V c) (bin1 V c)

/-- Point t writes back block t of that function. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := idx_facts1 t
  funext j
  show k1_pay1 (F := Ideal) (iblk1 V c 0 t) (iblk1 V c 1 t) j = G1 V c (((cfg1.win 2).blk t).view.emb j)
  refine (pay_apply (iblk1 V c 0 t) (iblk1 V c 1 t) j).trans ?_
  refine Eq.trans ?_ (Cert.Gcn.biasReluRow128_apply (xin1 V c) (bin1 V c) (((cfg1.win 2).blk t).view.emb j)).symm
  show max (xin1 V c (((cfg1.win 0).blk t).view.emb j) + bin1 V c (((cfg1.win 1).blk t).view.emb (biasIdx j))) _
    = max (xin1 V c (((cfg1.win 2).blk t).view.emb j) + bin1 V c (Cert.Gcn.rowIdx128 (((cfg1.win 2).blk t).view.emb j))) _
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (biasIdx j) = Cert.Gcn.rowIdx128 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every index is in the block of the point its row falls in. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 5000, by show (i 0).val / 5000 < 20; omega⟩, flush1_2 _, ?_⟩
  rw [mem_blk1]
  obtain ⟨e0, e1, e2, e3, e4, e5⟩ := idx_facts1 ⟨(i 0).val / 5000, by show (i 0).val / 5000 < 20; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e5]; omega

/-- The first bias-and-clamp pipeline's output array after the run. -/
theorem region1_value (c : Dev nD) : (dat1 (F := Ideal) V c).arrAt 2 cfg1.N = G1 V c :=
  (dat1 V c).arrAt_eq_of_cover 2 (G1 V c) (fun t _ => flushed1_eq V c t) cover1

end Cert.KernelIdeal.RegionBR

end
-- ==== Proof.RegionBiasRelu3.lean ====
/-
  What the two bias-and-clamp pipelines of the kernel program leave in their output arrays.

  Each of the 20 grid points takes a block of 5000 rows of the 100000 × 128 input and the whole 1 × 128 bias row, and
  stores, entry by entry, the larger of zero and the entry plus its column's bias. Block t of the output holds rows
  5000·t … 5000·t + 4999, so the 20 blocks tile the array, and the array after the run is the whole-array function
  Cert.Gcn.biasReluRow128 of the two input arrays as the region found them.
-/
import proofs.«142489_j22153441312995_1_alg».proof.Proof.Gen.KernelIdeal.Frame
import proofs.«142489_j22153441312995_1_alg».proof.Proof.SpecIndex
import Idealize.ShloMosaic.Lib.Pipeline.Value
import Idealize.ShloMosaic.Lib.ValueIdx
import Idealize.ShloMosaic.Lib.ValueLayout

set_option maxRecDepth 16384

noncomputable section

namespace Cert.KernelIdeal.RegionBR3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row's entry under the column of a block index. -/
abbrev biasIdx (j : S5000x128.Idx) : S1x128.Idx := fun a => match a with
  | ⟨0, _⟩ => ⟨0, Nat.one_pos⟩
  | ⟨1, _⟩ => ⟨(j 1).val, (j 1).isLt⟩

/-- The body's stored value at a block index: the larger of zero and the entry plus its column's bias. -/
theorem pay_apply (x0 : FVec Ideal S5000x128 .f32) (x1 : FVec Ideal S1x128 .f32) (j : S5000x128.Idx) :
    k3_pay1 (F := Ideal) x0 x1 j = max (x0 j + x1 (biasIdx j)) (Ideal.ofBits .f32 0x00000000#32) := by
  unfold k3_pay1
  simp only [shapeCast_self]
  rw [maximumf_apply, addf_apply,
    broadcastTo_apply x1 broadcasts_S1x128_S5000x128 j (biasIdx j) (fun a => match a with
      | ⟨0, _⟩ => by show 0 = if (1 : Nat) = 1 then 0 else (j ⟨0 + (2 - 2), _⟩).val; rw [if_pos rfl]
      | ⟨1, _⟩ => by show (j 1).val = if (128 : Nat) = 1 then 0 else (j ⟨1 + (2 - 2), _⟩).val; rw [if_neg (by decide)]; rfl)]
  rfl

/-! ## Pipeline 3 -/

/-- The printed index maps over the 20 points: the input block moves with the output block, the bias row stays. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The two input arrays as the region finds them, at their literal types. -/
abbrev xin3 (c : Dev nD) : FVec Ideal S100000x128 .f32 := V c (Pipeline.arrRef spec3 0)
abbrev bin3 (c : Dev nD) : FVec Ideal S1x128 .f32 := V c (Pipeline.arrRef spec3 1)

/-- What the array ends holding, as a function of the two input arrays. -/
abbrev G3 (c : Dev nD) : FVec Ideal S100000x128 .f32 :=
  Cert.Gcn.biasReluRow128 (F := Ideal) (xin3 V c) (bin3 V c)

/-- Point t writes back block t of that function. -/
theorem flushed3_eq (c : Dev nD) (t : Fin cfg3.N) :
    (dat3 (F := Ideal) V c).flushed 2 t = ((cfg3.win 2).blk t).view.read (Elt Ideal) (G3 V c) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := idx_facts3 t
  funext j
  show k3_pay1 (F := Ideal) (iblk3 V c 0 t) (iblk3 V c 1 t) j = G3 V c (((cfg3.win 2).blk t).view.emb j)
  refine (pay_apply (iblk3 V c 0 t) (iblk3 V c 1 t) j).trans ?_
  refine Eq.trans ?_ (Cert.Gcn.biasReluRow128_apply (xin3 V c) (bin3 V c) (((cfg3.win 2).blk t).view.emb j)).symm
  show max (xin3 V c (((cfg3.win 0).blk t).view.emb j) + bin3 V c (((cfg3.win 1).blk t).view.emb (biasIdx j))) _
    = max (xin3 V c (((cfg3.win 2).blk t).view.emb j) + bin3 V c (Cert.Gcn.rowIdx128 (((cfg3.win 2).blk t).view.emb j))) _
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (biasIdx j) = Cert.Gcn.rowIdx128 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]

/-- An index of the array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every index is in the block of the point its row falls in. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  refine ⟨⟨(i 0).val / 5000, by show (i 0).val / 5000 < 20; omega⟩, flush3_2 _, ?_⟩
  rw [mem_blk3]
  obtain ⟨e0, e1, e2, e3, e4, e5⟩ := idx_facts3 ⟨(i 0).val / 5000, by show (i 0).val / 5000 < 20; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 128 ≤ (i 1).val ∧ (i 1).val < win3_2.index _ (1 : Fin 2) * 128 + 128; rw [e5]; omega

/-- The second bias-and-clamp pipeline's output array after the run. -/
theorem region3_value (c : Dev nD) : (dat3 (F := Ideal) V c).arrAt 2 cfg3.N = G3 V c :=
  (dat3 V c).arrAt_eq_of_cover 2 (G3 V c) (fun t _ => flushed3_eq V c t) cover3

end Cert.KernelIdeal.RegionBR3

end
-- ==== Proof.RegionLogSoftmax.lean ====
/-
  What the last kernel region leaves in its output array, at the extended reals: the fused bias, clamp and row
  log-softmax over blocks of 5000 rows by 40 columns, 20 blocks covering the 100000 rows.

  Both sides are read through ONE row function: for a row f of 40 extended reals with maximum M (folded from the value
  of the word for minus infinity), entry q of the row's log-softmax is (f q - M) - log (sum over k of exp (f k - M)).
  The specification's log-softmax read at (r, q) is that function of row r (the second maximum against minus infinity
  changes nothing, since the fold starts there); an entry (p, q) of the block the kernel's body writes is that function
  of the row of clamped sums of block row p and the bias row. Block row p of point t is array row 5000 t + p, so what
  point t writes back is block t of the specification's array, and the 20 blocks cover every row: row r lies in
  block r / 5000.
-/
import proofs.«142489_j22153441312995_1_alg».proof.Proof.Gen.KernelIdeal.Frame
import proofs.«142489_j22153441312995_1_alg».proof.Proof.SpecIndex
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.LogSoftmax

open Cert.ReferenceIdeal Cert.ReferenceIdeal.Gen Idealize.ShloMosaic Idealize.ShloMosaic.ValueIdx

/-! ## One row of 40: its maximum and its log-softmax -/

/-- The maximum of a row of 40 extended reals, folded from the value of the word for minus infinity. -/
def rowMaxOf (f : Fin 40 → EReal) : EReal :=
  (Finset.univ : Finset (Fin 40)).fold max (Ideal.ofBits .f32 0xFF800000#32) f

/-- The log-softmax of a row of 40: each entry less the row's maximum, less the logarithm of the sum of the
    exponentials of the entries so shifted. -/
def lsmRow (f : Fin 40 → EReal) (q : Fin 40) : EReal :=
  (f q - rowMaxOf f) - Ideal.log (∑ k : Fin 40, Ideal.exp (f k - rowMaxOf f))

/-! ## Pointwise exponentials and logarithms, and the host's sum, read at an index -/

section Pointwise
variable {s t u : Shape} {φ : FTy}

theorem hostExp_apply (x : FVec Ideal s φ) (i : s.Idx) : Host.exp x i = Ideal.exp (x i) := rfl
theorem hostLog_apply (x : FVec Ideal s φ) (i : s.Idx) : Host.log x i = Ideal.log (x i) := rfl
theorem exp_apply (x : FVec Ideal s φ) (i : s.Idx) : exp x i = Ideal.exp (x i) := rfl
theorem log_apply (x : FVec Ideal s φ) (i : s.Idx) : log x i = Ideal.log (x i) := rfl

/-- The host's sum over one axis from an initial value: that value plus the sum over the axis's coordinates. -/
theorem hostReduceAdd_apply {a : Fin s.rank} (x : FVec Ideal s φ) (init : u.Idx → Ideal φ) (h' : s.ReducesTo [a] t)
    (h : s.Reduces [a] t) (hu : 0 < u.numel) (j : t.Idx) :
    Host.reduceAdd x init h' hu j = init (Shape.Idx.first hu) + ∑ k : Fin (s.size a), x (h.lift j k) :=
  Ideal.hostReduceAdd_single h' h x (init (Shape.Idx.first hu)) j

end Pointwise

/-! ## The specification's log-softmax read at an index -/

/-- Dropping the columns of a 100000 × 40 array leaves its 100000 rows. -/
theorem reducesCols : S100000x40.Reduces [1] S100000 := by decide

/-- The index a reduction over the columns inserts: row r, column k. -/
theorem liftCols (r : Fin 100000) (k : Fin 40) : reducesCols.lift (ix1 r) k = ix2 r k := by
  funext a
  match a with
  | ⟨0, _⟩ => exact Fin.ext rfl
  | ⟨1, _⟩ => exact Fin.ext rfl

/-- A column spread over the 40 columns reads its row's one entry. -/
theorem spread40_apply (w : FVec Ideal S100000x1 .f32) (r : Fin 100000) (q : Fin 40) :
    broadcastInDim S100000x40 ![0, 1] bcast_S100000x1_S100000x40_0_1 w (ix2 r q) = w (ix2 r (0 : Fin 1)) := by
  refine broadcastInDim_apply ![0, 1] bcast_S100000x1_S100000x40_0_1 w (ix2 r q) (ix2 r (0 : Fin 1)) fun a => ?_
  match a with
  | ⟨0, _⟩ => show r.val = if (100000 : Nat) = 1 then 0 else r.val; rw [if_neg (by decide)]
  | ⟨1, _⟩ => show 0 = if (1 : Nat) = 1 then 0 else q.val; rw [if_pos rfl]

/-- A vector of 100000 laid out as a column reads the same entry. -/
theorem col_apply (w : FVec Ideal S100000 .f32) (r : Fin 100000) :
    broadcastInDim S100000x1 ![0] bcast_S100000_S100000x1_0 w (ix2 r (0 : Fin 1)) = w (ix1 r) := by
  refine broadcastInDim_apply ![0] bcast_S100000_S100000x1_0 w (ix2 r (0 : Fin 1)) (ix1 r) fun a => ?_
  match a with
  | ⟨0, _⟩ => show r.val = if (100000 : Nat) = 1 then 0 else r.val; rw [if_neg (by decide)]

/-- A scalar spread over 100000 entries reads the scalar. -/
theorem splat_apply (w : FVec Ideal S_ .f32) (r : Fin 100000) :
    broadcastInDim S100000 ![] bcast_S_S100000 w (ix1 r) = w ix0 :=
  broadcastInDim_apply ![] bcast_S_S100000 w (ix1 r) ix0 fun a => a.elim0

/-- The host's maximum over the columns, from an initial scalar: the fold of the larger-of from that scalar over
    the row. -/
theorem hostRowMax_apply (y : FVec Ideal S100000x40 .f32) (w : FVec Ideal S_ .f32) (r : Fin 100000) :
    Host.reduce (FloatOps.maximumf (F := Ideal) (φ := .f32)) y w reducesTo_S100000x40_S100000_d1 h_S_ (ix1 r)
      = (Finset.univ : Finset (Fin 40)).fold max (w (Shape.Idx.first h_S_)) fun k => y (ix2 r k) :=
  (Host.reduce_eq_fold_single (FloatOps.maximumf (F := Ideal) (φ := .f32)) y w reducesTo_S100000x40_S100000_d1
      reducesCols h_S_ (ix1 r)).trans
    (congrArg (fun g : Fin 40 → EReal => (Finset.univ : Finset (Fin 40)).fold max (w (Shape.Idx.first h_S_)) g)
      (funext fun k => congrArg y (liftCols r k)))

/-- A row's maximum: the second maximum against minus infinity changes nothing, the fold starts there. -/
theorem rowMax_apply (y : FVec Ideal S100000x40 .f32) (r : Fin 100000) :
    rowMax (F := Ideal) y (ix1 r) = rowMaxOf fun k => y (ix2 r k) := by
  unfold rowMax
  rw [maximumf_apply, splat_apply, hostRowMax_apply, constant_apply, constant_apply]
  exact max_eq_right ((Finset.le_fold_max _).2 (Or.inl le_rfl))

/-- An entry less its row's maximum. -/
theorem shifted_apply (y : FVec Ideal S100000x40 .f32) (r : Fin 100000) (q : Fin 40) :
    shifted (F := Ideal) y (ix2 r q) = y (ix2 r q) - rowMaxOf fun k => y (ix2 r k) := by
  unfold shifted
  rw [subf_apply, spread40_apply, col_apply, rowMax_apply]

/-- An entry of the log-softmax: the log-softmax of its row. -/
theorem logSoftmax40_apply (y : FVec Ideal S100000x40 .f32) (r : Fin 100000) (q : Fin 40) :
    logSoftmax40 (F := Ideal) y (ix2 r q) = lsmRow (fun k => y (ix2 r k)) q := by
  unfold logSoftmax40
  rw [subf_apply, shifted_apply, spread40_apply, hostLog_apply, col_apply,
    hostReduceAdd_apply _ _ reducesTo_S100000x40_S100000_d1 reducesCols h_S_, constant_apply, Ideal.ofBits_zero_f32, zero_add]
  unfold lsmRow
  refine congrArg (fun z => (y (ix2 r q) - rowMaxOf fun k => y (ix2 r k)) - Ideal.log z) (Finset.sum_congr rfl fun k _ => ?_)
  exact (congrArg (fun i => Host.exp (shifted (F := Ideal) y) i) (liftCols r k)).trans
    ((hostExp_apply _ _).trans (congrArg Ideal.exp (shifted_apply y r k)))

end Cert.Gcn.LogSoftmax

namespace Cert.KernelIdeal.RegionLS

open Cert.KernelIdeal Cert.KernelIdeal.Gen Idealize.ShloMosaic Idealize.ShloMosaic.TcCoe Idealize.SL.Sem Idealize.ShloMosaic.ValueIdx
open Idealize.ShloMosaic.Pipeline (Dat)
open Cert.Gcn.LogSoftmax (rowMaxOf lsmRow exp_apply log_apply logSoftmax40_apply)

/-! ## The kernel's block: layout steps read at an index -/

/-- A column of 5000 broadcast over 40 columns reads its row's one entry. -/
theorem bcastCol_apply (w : FVec Ideal S5000x1 .f32) (p : Fin 5000) (q : Fin 40) :
    broadcastTo S5000x40 w broadcasts_S5000x1_S5000x40 (ix2 p q) = w (ix2 p (0 : Fin 1)) := by
  refine broadcastTo_apply w broadcasts_S5000x1_S5000x40 (ix2 p q) (ix2 p (0 : Fin 1)) fun a => ?_
  match a with
  | ⟨0, _⟩ => show p.val = if (5000 : Nat) = 1 then 0 else p.val; rw [if_neg (by decide)]
  | ⟨1, _⟩ => show 0 = if (1 : Nat) = 1 then 0 else q.val; rw [if_pos rfl]

/-- A vector of 5000 cast to a column reads the same entry. -/
theorem castCol_apply (w : FVec Ideal S5000 .f32) (p : Fin 5000) :
    shapeCast S5000x1 w shapeCasts_S5000_S5000x1 (ix2 p (0 : Fin 1)) = w (ix1 p) := by
  refine shapeCast_apply w shapeCasts_S5000_S5000x1 (ix2 p (0 : Fin 1)) (ix1 p) ?_
  rw [Shape.rowMajor_val_one, Shape.rowMajor_val_two]
  show p.val = p.val * 1 + 0
  omega

/-- The index a reduction over the columns inserts: row p, column k. -/
theorem lift5 (p : Fin 5000) (k : Fin 40) : reduces_S5000x40_S5000.lift (ix1 p) k = ix2 p k := by
  funext a
  match a with
  | ⟨0, _⟩ => exact Fin.ext rfl
  | ⟨1, _⟩ => exact Fin.ext rfl

/-- A block's row maximum. -/
theorem rowMax5_apply (v : FVec Ideal S5000x40 .f32) (hφ : FKind.Formats .f32)
    (hacc : (0xFF800000#32 : BitVec FTy.f32.bits) = FKind.maximumf.neutral .f32 hφ) (p : Fin 5000) :
    multiReduction .maximumf [1] S5000 v 0xFF800000#32 reduces_S5000x40_S5000 hφ hacc (ix1 p)
      = rowMaxOf fun k => v (ix2 p k) := by
  refine (Ideal.multiReduction_maximumf_single v 0xFF800000#32 reduces_S5000x40_S5000 hφ hacc (ix1 p)).trans ?_
  exact congrArg (fun g : Fin 40 → EReal => (Finset.univ : Finset (Fin 40)).fold max (Ideal.ofBits .f32 0xFF800000#32) g)
    (funext fun k => congrArg v (lift5 p k))

/-- A block's row sum. -/
theorem rowSum5_apply (v : FVec Ideal S5000x40 .f32) (hφ : FKind.Formats .f32)
    (hacc : (0x00000000#32 : BitVec FTy.f32.bits) = FKind.add.neutral .f32 hφ) (p : Fin 5000) :
    multiReduction .add [1] S5000 v 0x00000000#32 reduces_S5000x40_S5000 hφ hacc (ix1 p)
      = ∑ k : Fin 40, v (ix2 p k) := by
  refine (Ideal.multiReduction_add_single v 0x00000000#32 reduces_S5000x40_S5000 hφ hacc (ix1 p)).trans ?_
  exact Finset.sum_congr rfl fun k _ => congrArg v (lift5 p k)

/-- The block's activations: each entry plus its column's bias, clamped at zero. -/
def act5 (x0 : FVec Ideal S5000x40 .f32) (x1 : FVec Ideal S1x40 .f32) : FVec Ideal S5000x40 .f32 :=
  maximumf (addf (shapeCast S5000x40 x0 shapeCasts_S5000x40_S5000x40)
      (broadcastTo S5000x40 (shapeCast S1x40 x1 shapeCasts_S1x40_S1x40) broadcasts_S1x40_S5000x40))
    (broadcast S5000x40 (FloatOps.ofBits FTy.f32 0x00000000#32))

theorem act5_apply (x0 : FVec Ideal S5000x40 .f32) (x1 : FVec Ideal S1x40 .f32) (p : Fin 5000) (k : Fin 40) :
    act5 x0 x1 (ix2 p k) = max (x0 (ix2 p k) + x1 (ix2 (0 : Fin 1) k)) (Ideal.ofBits .f32 0x00000000#32) := by
  unfold act5
  rw [shapeCast_self, shapeCast_self, maximumf_apply, addf_apply, broadcastTo_1b_ab_apply]
  rfl

/-- A block's row maxima, spread back over the 40 columns. -/
def maxCols5 (Y : FVec Ideal S5000x40 .f32) : FVec Ideal S5000x40 .f32 :=
  broadcastTo S5000x40 (shapeCast S5000x1
    (multiReduction .maximumf [1] S5000 Y 0xFF800000#32 reduces_S5000x40_S5000 (.inl rfl) rfl)
    shapeCasts_S5000_S5000x1) broadcasts_S5000x1_S5000x40

theorem maxCols5_apply (Y : FVec Ideal S5000x40 .f32) (p : Fin 5000) (q : Fin 40) :
    maxCols5 Y (ix2 p q) = rowMaxOf fun k => Y (ix2 p k) :=
  (bcastCol_apply _ p q).trans ((castCol_apply _ p).trans (rowMax5_apply Y _ _ p))

/-- A block's row log-softmax, as the kernel's body spells it. -/
def lsm5 (Y : FVec Ideal S5000x40 .f32) : FVec Ideal S5000x40 .f32 :=
  subf (subf Y (maxCols5 Y))
    (broadcastTo S5000x40 (log (shapeCast S5000x1
      (multiReduction .add [1] S5000 (exp (subf Y (maxCols5 Y))) 0x00000000#32 reduces_S5000x40_S5000 (.inl rfl) rfl)
      shapeCasts_S5000_S5000x1)) broadcasts_S5000x1_S5000x40)

theorem lsm5_apply (Y : FVec Ideal S5000x40 .f32) (p : Fin 5000) (q : Fin 40) :
    lsm5 Y (ix2 p q) = lsmRow (fun k => Y (ix2 p k)) q := by
  unfold lsm5
  rw [subf_apply, subf_apply, maxCols5_apply, bcastCol_apply, log_apply, castCol_apply]
  refine (congrArg (fun z => (Y (ix2 p q) - rowMaxOf fun k => Y (ix2 p k)) - Ideal.log z) (rowSum5_apply _ _ _ p)).trans ?_
  unfold lsmRow
  refine congrArg (fun z => (Y (ix2 p q) - rowMaxOf fun k => Y (ix2 p k)) - Ideal.log z) (Finset.sum_congr rfl fun k _ => ?_)
  rw [exp_apply, subf_apply, maxCols5_apply]

/-- The body's payload is that log-softmax of the activations. -/
theorem pay5_eq (x0 : FVec Ideal S5000x40 .f32) (x1 : FVec Ideal S1x40 .f32) :
    k5_pay1 (F := Ideal) x0 x1 = lsm5 (act5 x0 x1) := rfl

/-- An entry of the body's payload: the log-softmax of the row of clamped sums. -/
theorem pay5_apply (x0 : FVec Ideal S5000x40 .f32) (x1 : FVec Ideal S1x40 .f32) (p : Fin 5000) (q : Fin 40) :
    k5_pay1 (F := Ideal) x0 x1 (ix2 p q)
      = lsmRow (fun k => max (x0 (ix2 p k) + x1 (ix2 (0 : Fin 1) k)) (Ideal.ofBits .f32 0x00000000#32)) q := by
  rw [pay5_eq, lsm5_apply]
  exact congrArg (fun f => lsmRow f q) (funext fun k => act5_apply x0 x1 p k)

/-! ## What the region leaves in its output array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 20 points: the input block of node rows moves with the output block,
    which is block t of the rows in the one block of columns; the bias row's block never moves. -/
theorem idx_facts5 : ∀ t : Fin cfg5.N, win5_0.index t (0 : Fin 2) = win5_2.index t (0 : Fin 2)
    ∧ win5_0.index t (1 : Fin 2) = win5_2.index t (1 : Fin 2)
    ∧ win5_2.index t (0 : Fin 2) = t.val ∧ win5_2.index t (1 : Fin 2) = 0
    ∧ win5_1.index t (0 : Fin 2) = 0 ∧ win5_1.index t (1 : Fin 2) = 0 :=
  (by decide +kernel : ∀ t : Fin grid5.N, _)

/-- The whole array the region leaves: the log-softmax of the biased and clamped input, as the specification has it. -/
abbrev G5 (c : Dev nD) : S100000x40.Idx → EReal :=
  Cert.Gcn.logSoftmax40 (F := Ideal)
    (Cert.Gcn.biasReluRow40 (F := Ideal) (V c (Pipeline.arrRef spec5 0)) (V c (Pipeline.arrRef spec5 1)))

/-- Row p of point t's block is row 5000 t + p of the array. -/
theorem row_lt (t : Fin cfg5.N) (p : Fin 5000) : t.val * 5000 + p.val < 100000 := by
  have ht : t.val < 20 := t.isLt
  have hp := p.isLt
  omega

/-- An entry of the body's payload over the input blocks at point t is the whole-array function at the entry's place in the array. -/
theorem pay5_at (c : Dev nD) (t : Fin cfg5.N) (p : Fin 5000) (q : Fin 40) :
    k5_pay1 (F := Ideal) (iblk5 V c 0 t) (iblk5 V c 1 t) (ix2 p q)
      = G5 V c (ix2 (⟨t.val * 5000 + p.val, row_lt t p⟩ : Fin 100000) q) := by
  obtain ⟨e0, e1, e2, e3, e4, e5⟩ := idx_facts5 t
  refine (pay5_apply (iblk5 V c 0 t) (iblk5 V c 1 t) p q).trans ?_
  refine Eq.trans ?_ (logSoftmax40_apply _ ⟨t.val * 5000 + p.val, row_lt t p⟩ q).symm
  refine congrArg (fun f => lsmRow f q) (funext fun k => ?_)
  refine Eq.trans ?_ (Cert.Gcn.biasReluRow40_apply _ _ _).symm
  have h0 : iblk5 V c 0 t (ix2 p k) = V c (Pipeline.arrRef spec5 0) (ix2 (⟨t.val * 5000 + p.val, row_lt t p⟩ : Fin 100000) k) := by
    show V c (Pipeline.arrRef spec5 0) (((cfg5.win 0).blk t).view.emb (ix2 p k)) = V c (Pipeline.arrRef spec5 0) _
    refine congrArg (V c (Pipeline.arrRef spec5 0)) (funext fun a => Fin.ext ?_)
    match a with
    | ⟨0, _⟩ => show win5_0.index t (0 : Fin 2) * 5000 + 1 * p.val = t.val * 5000 + p.val; omega
    | ⟨1, _⟩ => show win5_0.index t (1 : Fin 2) * 40 + 1 * k.val = k.val; omega
  have h1 : iblk5 V c 1 t (ix2 (0 : Fin 1) k) = V c (Pipeline.arrRef spec5 1) (Cert.Gcn.rowIdx40 (ix2 (⟨t.val * 5000 + p.val, row_lt t p⟩ : Fin 100000) k)) := by
    show V c (Pipeline.arrRef spec5 1) (((cfg5.win 1).blk t).view.emb (ix2 (0 : Fin 1) k)) = V c (Pipeline.arrRef spec5 1) _
    refine congrArg (V c (Pipeline.arrRef spec5 1)) (funext fun a => Fin.ext ?_)
    match a with
    | ⟨0, _⟩ => show win5_1.index t (0 : Fin 2) * 1 + 1 * 0 = 0; omega
    | ⟨1, _⟩ => show win5_1.index t (1 : Fin 2) * 40 + 1 * k.val = k.val; omega
  rw [h0, h1]

/-- WHAT POINT t WRITES BACK is block t of that whole-array function. -/
theorem flushed5_eq (c : Dev nD) (t : Fin cfg5.N) :
    (dat5 (F := Ideal) V c).flushed 2 t = ((cfg5.win 2).blk t).view.read (Elt Ideal) (G5 V c) := by
  show (cfg5.win 2).cut (grid5.coords t) ((dat5 V c).after 2 t) = _
  rw [after5_2]
  unfold out5_2
  rw [View.canon_unit_zero zero_offsets]
  simp only [View.ld_unit_zero (S := S5000x40) zero_offsets, View.ld_unit_zero (S := S1x40) zero_offsets]
  funext j
  obtain ⟨p, q, rfl⟩ : ∃ (p : Fin 5000) (q : Fin 40), j = ix2 p q := ⟨j 0, j 1, eq_ix2 j⟩
  obtain ⟨e0, e1, e2, e3, e4, e5⟩ := idx_facts5 t
  show k5_pay1 (F := Ideal) (iblk5 V c 0 t) (iblk5 V c 1 t) (ix2 p q) = G5 V c (((cfg5.win 2).blk t).view.emb (ix2 p q))
  refine (pay5_at V c t p q).trans (congrArg (G5 V c) (funext fun a => Fin.ext ?_))
  match a with
  | ⟨0, _⟩ => show t.val * 5000 + p.val = win5_2.index t (0 : Fin 2) * 5000 + 1 * p.val; omega
  | ⟨1, _⟩ => show q.val = win5_2.index t (1 : Fin 2) * 40 + 1 * q.val; omega

/-- An index of the array is in point t's block iff each coordinate is in the block's range on its axis. -/
theorem mem_blk5 (t : Fin cfg5.N) (i : S100000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v79).slice (win5_2.rect t)).set ↔ _
  rw [View.set_slice_whole, Rect.mem_set_unit]
  exact Iff.rfl

/-- Every index of the array is in some point's block: row r is in block r / 5000. -/
theorem cover5 (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have ht : (i 0).val / 5000 < 20 := by omega
  obtain ⟨e0, e1, e2, e3, e4, e5⟩ := idx_facts5 ⟨(i 0).val / 5000, ht⟩
  have e2' : win5_2.index ⟨(i 0).val / 5000, ht⟩ (0 : Fin 2) = (i 0).val / 5000 := e2
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    omega
  | ⟨1, _⟩ =>
    show win5_2.index ⟨(i 0).val / 5000, ht⟩ (1 : Fin 2) * 40 ≤ (i 1).val
      ∧ (i 1).val < win5_2.index ⟨(i 0).val / 5000, ht⟩ (1 : Fin 2) * 40 + 40
    omega

/-- THE ARRAY after the region: the specification's log-softmax of the biased and clamped input array. -/
theorem region5_value (c : Dev nD) :
    (dat5 (F := Ideal) V c).arrAt 2 cfg5.N
      = Cert.Gcn.logSoftmax40 (F := Ideal) (Cert.Gcn.biasReluRow40 (F := Ideal) (V c (Pipeline.arrRef spec5 0)) (V c (Pipeline.arrRef spec5 1))) :=
  (dat5 (F := Ideal) V c).arrAt_eq_of_cover 2 (G5 V c) (fun t _ => flushed5_eq V c t) cover5

end Cert.KernelIdeal.RegionLS

end
-- ==== Proof.KernelValue.lean ====
/-
  The result array of the kernel program, followed back through its six pipelines and the host stretches between
  them to the launch contents of the arguments: it holds the network's function gcn of the eight arguments.

  Reading backwards from the end: the last pipeline leaves the log-softmax of the biased and clamped third message
  passing; each message passing is its stretch's function of the edge columns, the edges' weights and the linear
  map's result, which a matrix-product pipeline left; each hidden layer is what a bias-and-clamp pipeline left. The
  columns, the weights and the arguments are written by nothing after the first stretch, so every reading of them
  goes back to the first pipeline's entry, where they are srcIdx, dstIdx, edgeNorm of the edge list and the
  arguments as launched.
-/
import proofs.«142489_j22153441312995_1_alg».proof.Proof.KernelHost
import proofs.«142489_j22153441312995_1_alg».proof.Proof.RegionMatmul0
import proofs.«142489_j22153441312995_1_alg».proof.Proof.RegionMatmul2
import proofs.«142489_j22153441312995_1_alg».proof.Proof.RegionMatmul4
import proofs.«142489_j22153441312995_1_alg».proof.Proof.RegionBiasRelu
import proofs.«142489_j22153441312995_1_alg».proof.Proof.RegionBiasRelu3
import proofs.«142489_j22153441312995_1_alg».proof.Proof.RegionLogSoftmax

set_option maxRecDepth 16384

noncomputable section

namespace Cert.KernelIdeal.Value

open Cert.KernelIdeal Cert.KernelIdeal.Gen Cert.KernelIdeal.Host Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The arguments as launched, at their literal types -/

abbrev aX : FVec Ideal S100000x128 .f32 := m ((c : Thread nD τ).loc main_arg0)
abbrev aE : Vec Ideal S2x600000 .i32 := m ((c : Thread nD τ).loc main_arg1)
abbrev aW1 : FVec Ideal S128x128 .f32 := m ((c : Thread nD τ).loc main_arg2)
abbrev aB1 : FVec Ideal S128 .f32 := m ((c : Thread nD τ).loc main_arg3)
abbrev aW2 : FVec Ideal S128x128 .f32 := m ((c : Thread nD τ).loc main_arg4)
abbrev aB2 : FVec Ideal S128 .f32 := m ((c : Thread nD τ).loc main_arg5)
abbrev aW3 : FVec Ideal S128x40 .f32 := m ((c : Thread nD τ).loc main_arg6)
abbrev aB3 : FVec Ideal S40 .f32 := m ((c : Thread nD τ).loc main_arg7)

/-! ## A buffer nothing writes keeps its contents from the first pipeline's entry on -/

theorem carry4 (r : Ref sig .tc) (h0 : ∀ w, Pipeline.arrRef spec0 w ≠ r) :
    W4 m ρ c (Proc.devRef .tc r) = W3 m ρ c (Proc.devRef .tc r) := W4_of_ne m ρ c r h0
theorem carry5 (r : Ref sig .tc) (h0 : ∀ w, Pipeline.arrRef spec0 w ≠ r) (h1 : r ∉ hostOps1_W) :
    W5 m ρ c (Proc.devRef .tc r) = W3 m ρ c (Proc.devRef .tc r) :=
  (keep1 (W4 m ρ c) r h1).trans (carry4 m ρ c r h0)
theorem carry6 (r : Ref sig .tc) (h0 : ∀ w, Pipeline.arrRef spec0 w ≠ r) (h1 : r ∉ hostOps1_W) (h2 : ∀ w, Pipeline.arrRef spec1 w ≠ r) :
    W6 m ρ c (Proc.devRef .tc r) = W3 m ρ c (Proc.devRef .tc r) :=
  (W6_of_ne m ρ c r h2).trans (carry5 m ρ c r h0 h1)
theorem carry7 (r : Ref sig .tc) (h0 : ∀ w, Pipeline.arrRef spec0 w ≠ r) (h1 : r ∉ hostOps1_W) (h2 : ∀ w, Pipeline.arrRef spec1 w ≠ r)
    (h3 : ∀ w, Pipeline.arrRef spec2 w ≠ r) :
    W7 m ρ c (Proc.devRef .tc r) = W3 m ρ c (Proc.devRef .tc r) :=
  (W7_of_ne m ρ c r h3).trans (carry6 m ρ c r h0 h1 h2)
theorem carry8 (r : Ref sig .tc) (h0 : ∀ w, Pipeline.arrRef spec0 w ≠ r) (h1 : r ∉ hostOps1_W) (h2 : ∀ w, Pipeline.arrRef spec1 w ≠ r)
    (h3 : ∀ w, Pipeline.arrRef spec2 w ≠ r) (h4 : r ∉ hostOps3_W) :
    W8 m ρ c (Proc.devRef .tc r) = W3 m ρ c (Proc.devRef .tc r) :=
  (keep3 (W7 m ρ c) r h4).trans (carry7 m ρ c r h0 h1 h2 h3)
theorem carry9 (r : Ref sig .tc) (h0 : ∀ w, Pipeline.arrRef spec0 w ≠ r) (h1 : r ∉ hostOps1_W) (h2 : ∀ w, Pipeline.arrRef spec1 w ≠ r)
    (h3 : ∀ w, Pipeline.arrRef spec2 w ≠ r) (h4 : r ∉ hostOps3_W) (h5 : ∀ w, Pipeline.arrRef spec3 w ≠ r) :
    W9 m ρ c (Proc.devRef .tc r) = W3 m ρ c (Proc.devRef .tc r) :=
  (W9_of_ne m ρ c r h5).trans (carry8 m ρ c r h0 h1 h2 h3 h4)
theorem carry10 (r : Ref sig .tc) (h0 : ∀ w, Pipeline.arrRef spec0 w ≠ r) (h1 : r ∉ hostOps1_W) (h2 : ∀ w, Pipeline.arrRef spec1 w ≠ r)
    (h3 : ∀ w, Pipeline.arrRef spec2 w ≠ r) (h4 : r ∉ hostOps3_W) (h5 : ∀ w, Pipeline.arrRef spec3 w ≠ r)
    (h6 : ∀ w, Pipeline.arrRef spec4 w ≠ r) :
    W10 m ρ c (Proc.devRef .tc r) = W3 m ρ c (Proc.devRef .tc r) :=
  (W10_of_ne m ρ c r h6).trans (carry9 m ρ c r h0 h1 h2 h3 h4 h5)

/-! ## Layer 1 -/

/-- The first matrix product. -/
theorem lin1 : W4 m ρ c (Proc.devRef .tc main_v32) = Cert.Gcn.lin128 (aX m c) (aW1 m c) :=
  (W4_arr m ρ c 2).trans ((RegionMM0.region_value (V3 m ρ) c).trans
    (congrArg₂ (Cert.Gcn.lin128 (F := Ideal)) (pre_keep m ρ c main_arg0 (by decide) (by decide) (by decide))
      (pre_keep m ρ c main_arg2 (by decide) (by decide) (by decide))))

/-- The first message passing. -/
theorem agg1 : W5 m ρ c (Proc.devRef .tc main_v45) = Cert.Gcn.agg128 (aE m c) (Cert.Gcn.lin128 (aX m c) (aW1 m c)) := by
  refine (stretch1_agg (W4 m ρ c)).trans ?_
  rw [carry4 m ρ c main_v3 (by decide), carry4 m ρ c main_v6 (by decide), carry4 m ρ c main_v31 (by decide),
    pre_src, pre_dst, pre_nrm, lin1]
  rfl

/-- The first bias as one row. -/
theorem bias1 : W5 m ρ c (Proc.devRef .tc main_v46)
    = broadcastInDim S1x128 ![1] Cert.ReferenceIdeal.Gen.bcast_S128_S1x128_1 (aB1 m c) := by
  refine (stretch1_bias (W4 m ρ c)).trans ?_
  rw [carry4 m ρ c main_arg3 (by decide), pre_keep m ρ c main_arg3 (by decide) (by decide) (by decide)]

/-- The first hidden layer. -/
theorem hid1 : W6 m ρ c (Proc.devRef .tc main_v47) = Cert.Gcn.hidden (aX m c) (aE m c) (aW1 m c) (aB1 m c) :=
  (W6_arr m ρ c 2).trans ((RegionBR.region1_value (V5 m ρ) c).trans
    ((congrArg₂ (Cert.Gcn.biasReluRow128 (F := Ideal)) (agg1 m ρ c) (bias1 m ρ c)).trans rfl))

/-! ## Layer 2 -/

theorem lin2 : W7 m ρ c (Proc.devRef .tc main_v48)
    = Cert.Gcn.lin128 (Cert.Gcn.hidden (aX m c) (aE m c) (aW1 m c) (aB1 m c)) (aW2 m c) :=
  (W7_arr m ρ c 2).trans ((RegionMM2.region_value (V6 m ρ) c).trans
    (congrArg₂ (Cert.Gcn.lin128 (F := Ideal)) (hid1 m ρ c)
      ((carry6 m ρ c main_arg4 (by decide) (by decide) (by decide)).trans (pre_keep m ρ c main_arg4 (by decide) (by decide) (by decide)))))

theorem agg2 : W8 m ρ c (Proc.devRef .tc main_v61)
    = Cert.Gcn.agg128 (aE m c) (Cert.Gcn.lin128 (Cert.Gcn.hidden (aX m c) (aE m c) (aW1 m c) (aB1 m c)) (aW2 m c)) := by
  refine (stretch3_agg (W7 m ρ c)).trans ?_
  rw [carry7 m ρ c main_v3 (by decide) (by decide) (by decide) (by decide), carry7 m ρ c main_v6 (by decide) (by decide) (by decide) (by decide),
    carry7 m ρ c main_v31 (by decide) (by decide) (by decide) (by decide), pre_src, pre_dst, pre_nrm, lin2]
  rfl

theorem bias2 : W8 m ρ c (Proc.devRef .tc main_v62)
    = broadcastInDim S1x128 ![1] Cert.ReferenceIdeal.Gen.bcast_S128_S1x128_1 (aB2 m c) := by
  refine (stretch3_bias (W7 m ρ c)).trans ?_
  rw [carry7 m ρ c main_arg5 (by decide) (by decide) (by decide) (by decide), pre_keep m ρ c main_arg5 (by decide) (by decide) (by decide)]

theorem hid2 : W9 m ρ c (Proc.devRef .tc main_v63)
    = Cert.Gcn.hidden (Cert.Gcn.hidden (aX m c) (aE m c) (aW1 m c) (aB1 m c)) (aE m c) (aW2 m c) (aB2 m c) :=
  (W9_arr m ρ c 2).trans ((RegionBR3.region3_value (V8 m ρ) c).trans
    ((congrArg₂ (Cert.Gcn.biasReluRow128 (F := Ideal)) (agg2 m ρ c) (bias2 m ρ c)).trans rfl))

/-! ## Layer 3 and the log-softmax -/

theorem lin3 : W10 m ρ c (Proc.devRef .tc main_v64)
    = Cert.Gcn.lin40 (Cert.Gcn.hidden (Cert.Gcn.hidden (aX m c) (aE m c) (aW1 m c) (aB1 m c)) (aE m c) (aW2 m c) (aB2 m c)) (aW3 m c) :=
  (W10_arr m ρ c 2).trans ((RegionMM4.region_value (V9 m ρ) c).trans
    (congrArg₂ (Cert.Gcn.lin40 (F := Ideal)) (hid2 m ρ c)
      ((carry9 m ρ c main_arg6 (by decide) (by decide) (by decide) (by decide) (by decide) (by decide)).trans
        (pre_keep m ρ c main_arg6 (by decide) (by decide) (by decide)))))

theorem agg3 : W11 m ρ c (Proc.devRef .tc main_v77)
    = Cert.Gcn.agg40 (aE m c) (Cert.Gcn.lin40 (Cert.Gcn.hidden (Cert.Gcn.hidden (aX m c) (aE m c) (aW1 m c) (aB1 m c)) (aE m c) (aW2 m c) (aB2 m c)) (aW3 m c)) := by
  refine (stretch5_agg (W10 m ρ c)).trans ?_
  rw [carry10 m ρ c main_v3 (by decide) (by decide) (by decide) (by decide) (by decide) (by decide) (by decide),
    carry10 m ρ c main_v6 (by decide) (by decide) (by decide) (by decide) (by decide) (by decide) (by decide),
    carry10 m ρ c main_v31 (by decide) (by decide) (by decide) (by decide) (by decide) (by decide) (by decide), pre_src, pre_dst, pre_nrm, lin3]
  rfl

theorem bias3 : W11 m ρ c (Proc.devRef .tc main_v78)
    = broadcastInDim S1x40 ![1] Cert.ReferenceIdeal.Gen.bcast_S40_S1x40_1 (aB3 m c) := by
  refine (stretch5_bias (W10 m ρ c)).trans ?_
  rw [carry10 m ρ c main_arg7 (by decide) (by decide) (by decide) (by decide) (by decide) (by decide) (by decide),
    pre_keep m ρ c main_arg7 (by decide) (by decide) (by decide)]

/-- THE RESULT ARRAY at the last boundary: the network's function of the arguments as launched. -/
theorem result : W12 m ρ c (Proc.devRef .tc main_v79)
    = Cert.Gcn.gcn (aX m c) (aE m c) (aW1 m c) (aB1 m c) (aW2 m c) (aB2 m c) (aW3 m c) (aB3 m c) :=
  (W12_arr m ρ c 2).trans ((RegionLS.region5_value (V11 m ρ) c).trans
    ((congrArg (Cert.Gcn.logSoftmax40 (F := Ideal)) (congrArg₂ (Cert.Gcn.biasReluRow40 (F := Ideal)) (agg3 m ρ c) (bias3 m ρ c))).trans rfl))

end Cert.KernelIdeal.Value

end
-- ==== Proof.RefValue.lean ====
/-
  The reference program's run, with its result stated as the network function of the arguments.

  The 127 host operations are cut into four consecutive stretches: the edge columns, the degree count and the edges'
  weights; the first layer; the second layer; the third layer with the closing log-softmax. What a stretch leaves
  at the buffer of its last value is one of the specification's functions of what it found at the buffers it reads,
  for ANY contents it starts from; a buffer it does not write keeps its contents. The four in a row give the whole
  network at the launch contents of the eight arguments, and leave the arguments as launched.
-/
import proofs.«142489_j22153441312995_1_alg».proof.Proof.RefOps
import proofs.«142489_j22153441312995_1_alg».proof.Proof.Spec
import Idealize.ShloMosaic.Lib.StableHlo.Run
import Idealize.ShloMosaic.Lib.Pipeline.Frame

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The four stretches -/

/-- The edge columns (the source column at main_v3, the target column at main_v6), the degree count, the inverse
    square root degrees and the edges' weights (at main_v31): operations 1 … 43. -/
abbrev opsA : List (HloOp τ sig (Elt F)) :=
  [ nullary main_v0 (iotaInDim S100000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v7 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S700000x1 ![0] bcast_S700000_S700000x1_0 : (⟨S700000, .i32⟩ : BufTy).Contents (Elt F) → (⟨S700000x1, .i32⟩ : BufTy).Contents (Elt F)),
    ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S700000 ![] bcast_S_S700000 : (⟨S_, .i32⟩ : BufTy).Contents (Elt F) → (⟨S700000, .i32⟩ : BufTy).Contents (Elt F)),
    binary main_v3 main_v17 main_v18 (cmpi .slt : (⟨S700000, .i32⟩ : BufTy).Contents (Elt F) → (⟨S700000, .i32⟩ : BufTy).Contents (Elt F) → (⟨S700000, .i1⟩ : BufTy).Contents (Elt F)),
    nullary main_c_4 (constantI S_ 32 100000#32),
    unary main_c_4 main_v19 (broadcastInDim S700000 ![] bcast_S_S700000 : (⟨S_, .i32⟩ : BufTy).Contents (Elt F) → (⟨S700000, .i32⟩ : BufTy).Contents (Elt F)),
    binary main_v3 main_v19 main_v20 (addi : (⟨S700000, .i32⟩ : BufTy).Contents (Elt F) → (⟨S700000, .i32⟩ : BufTy).Contents (Elt F) → (⟨S700000, .i32⟩ : BufTy).Contents (Elt F)),
    ternary main_v18 main_v20 main_v3 main_v21 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v21 main_v22 (broadcastInDim S700000x1 ![0] bcast_S700000_S700000x1_0 : (⟨S700000, .i32⟩ : BufTy).Contents (Elt F) → (⟨S700000x1, .i32⟩ : BufTy).Contents (Elt F)),
    binary main_v16 main_v22 main_v23 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_5 (constantI S_ 32 0#32),
    unary main_c_5 main_v24 (broadcastInDim S700000 ![] bcast_S_S700000 : (⟨S_, .i32⟩ : BufTy).Contents (Elt F) → (⟨S700000, .i32⟩ : BufTy).Contents (Elt F)),
    binary main_v6 main_v24 main_v25 (cmpi .slt : (⟨S700000, .i32⟩ : BufTy).Contents (Elt F) → (⟨S700000, .i32⟩ : BufTy).Contents (Elt F) → (⟨S700000, .i1⟩ : BufTy).Contents (Elt F)),
    nullary main_c_6 (constantI S_ 32 100000#32),
    unary main_c_6 main_v26 (broadcastInDim S700000 ![] bcast_S_S700000 : (⟨S_, .i32⟩ : BufTy).Contents (Elt F) → (⟨S700000, .i32⟩ : BufTy).Contents (Elt F)),
    binary main_v6 main_v26 main_v27 (addi : (⟨S700000, .i32⟩ : BufTy).Contents (Elt F) → (⟨S700000, .i32⟩ : BufTy).Contents (Elt F) → (⟨S700000, .i32⟩ : BufTy).Contents (Elt F)),
    ternary main_v25 main_v27 main_v6 main_v28 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v28 main_v29 (broadcastInDim S700000x1 ![0] bcast_S700000_S700000x1_0 : (⟨S700000, .i32⟩ : BufTy).Contents (Elt F) → (⟨S700000x1, .i32⟩ : BufTy).Contents (Elt F)),
    binary main_v16 main_v29 main_v30 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v23 main_v30 main_v31 (mulf : (⟨S700000, .f32⟩ : BufTy).Contents (Elt F) → (⟨S700000, .f32⟩ : BufTy).Contents (Elt F) → (⟨S700000, .f32⟩ : BufTy).Contents (Elt F)) ]

/-- The first layer (its result at main_v49): operations 44 … 66. -/
abbrev opsB1 : List (HloOp τ sig (Elt F)) :=
  [ binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S700000 ![] bcast_S_S700000 : (⟨S_, .i32⟩ : BufTy).Contents (Elt F) → (⟨S700000, .i32⟩ : BufTy).Contents (Elt F)),
    binary main_v3 main_v33 main_v34 (cmpi .slt : (⟨S700000, .i32⟩ : BufTy).Contents (Elt F) → (⟨S700000, .i32⟩ : BufTy).Contents (Elt F) → (⟨S700000, .i1⟩ : BufTy).Contents (Elt F)),
    nullary main_c_8 (constantI S_ 32 100000#32),
    unary main_c_8 main_v35 (broadcastInDim S700000 ![] bcast_S_S700000 : (⟨S_, .i32⟩ : BufTy).Contents (Elt F) → (⟨S700000, .i32⟩ : BufTy).Contents (Elt F)),
    binary main_v3 main_v35 main_v36 (addi : (⟨S700000, .i32⟩ : BufTy).Contents (Elt F) → (⟨S700000, .i32⟩ : BufTy).Contents (Elt F) → (⟨S700000, .i32⟩ : BufTy).Contents (Elt F)),
    ternary main_v34 main_v36 main_v3 main_v37 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v37 main_v38 (broadcastInDim S700000x1 ![0] bcast_S700000_S700000x1_0 : (⟨S700000, .i32⟩ : BufTy).Contents (Elt F) → (⟨S700000x1, .i32⟩ : BufTy).Contents (Elt F)),
    binary main_v32 main_v38 main_v39 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v31 main_v40 (broadcastInDim S700000x1 ![0] bcast_S700000_S700000x1_0 : (⟨S700000, .f32⟩ : BufTy).Contents (Elt F) → (⟨S700000x1, .f32⟩ : BufTy).Contents (Elt F)),
    unary main_v40 main_v41 (broadcastInDim S700000x128 ![0, 1] bcast_S700000x1_S700000x128_0_1 : (⟨S700000x1, .f32⟩ : BufTy).Contents (Elt F) → (⟨S700000x128, .f32⟩ : BufTy).Contents (Elt F)),
    binary main_v39 main_v41 main_v42 (mulf : (⟨S700000x128, .f32⟩ : BufTy).Contents (Elt F) → (⟨S700000x128, .f32⟩ : BufTy).Contents (Elt F) → (⟨S700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S700000x1 ![0] bcast_S700000_S700000x1_0 : (⟨S700000, .i32⟩ : BufTy).Contents (Elt F) → (⟨S700000x1, .i32⟩ : BufTy).Contents (Elt F)),
    ternary main_v43 main_v44 main_v42 main_v45 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- The second layer (its result at main_v67): operations 67 … 89. -/
abbrev opsB2 : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S700000 ![] bcast_S_S700000 : (⟨S_, .i32⟩ : BufTy).Contents (Elt F) → (⟨S700000, .i32⟩ : BufTy).Contents (Elt F)),
    binary main_v3 main_v51 main_v52 (cmpi .slt : (⟨S700000, .i32⟩ : BufTy).Contents (Elt F) → (⟨S700000, .i32⟩ : BufTy).Contents (Elt F) → (⟨S700000, .i1⟩ : BufTy).Contents (Elt F)),
    nullary main_c_11 (constantI S_ 32 100000#32),
    unary main_c_11 main_v53 (broadcastInDim S700000 ![] bcast_S_S700000 : (⟨S_, .i32⟩ : BufTy).Contents (Elt F) → (⟨S700000, .i32⟩ : BufTy).Contents (Elt F)),
    binary main_v3 main_v53 main_v54 (addi : (⟨S700000, .i32⟩ : BufTy).Contents (Elt F) → (⟨S700000, .i32⟩ : BufTy).Contents (Elt F) → (⟨S700000, .i32⟩ : BufTy).Contents (Elt F)),
    ternary main_v52 main_v54 main_v3 main_v55 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v55 main_v56 (broadcastInDim S700000x1 ![0] bcast_S700000_S700000x1_0 : (⟨S700000, .i32⟩ : BufTy).Contents (Elt F) → (⟨S700000x1, .i32⟩ : BufTy).Contents (Elt F)),
    binary main_v50 main_v56 main_v57 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v31 main_v58 (broadcastInDim S700000x1 ![0] bcast_S700000_S700000x1_0 : (⟨S700000, .f32⟩ : BufTy).Contents (Elt F) → (⟨S700000x1, .f32⟩ : BufTy).Contents (Elt F)),
    unary main_v58 main_v59 (broadcastInDim S700000x128 ![0, 1] bcast_S700000x1_S700000x128_0_1 : (⟨S700000x1, .f32⟩ : BufTy).Contents (Elt F) → (⟨S700000x128, .f32⟩ : BufTy).Contents (Elt F)),
    binary main_v57 main_v59 main_v60 (mulf : (⟨S700000x128, .f32⟩ : BufTy).Contents (Elt F) → (⟨S700000x128, .f32⟩ : BufTy).Contents (Elt F) → (⟨S700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S700000x1 ![0] bcast_S700000_S700000x1_0 : (⟨S700000, .i32⟩ : BufTy).Contents (Elt F) → (⟨S700000x1, .i32⟩ : BufTy).Contents (Elt F)),
    ternary main_v61 main_v62 main_v60 main_v63 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf ]

/-- The third layer and the log-softmax (the result at main_v86): operations 90 … 127. -/
abbrev opsB3 : List (HloOp τ sig (Elt F)) :=
  [ binary main_v67 main_arg6 main_v68 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_13 (constantI S_ 32 0#32),
    unary main_c_13 main_v69 (broadcastInDim S700000 ![] bcast_S_S700000 : (⟨S_, .i32⟩ : BufTy).Contents (Elt F) → (⟨S700000, .i32⟩ : BufTy).Contents (Elt F)),
    binary main_v3 main_v69 main_v70 (cmpi .slt : (⟨S700000, .i32⟩ : BufTy).Contents (Elt F) → (⟨S700000, .i32⟩ : BufTy).Contents (Elt F) → (⟨S700000, .i1⟩ : BufTy).Contents (Elt F)),
    nullary main_c_14 (constantI S_ 32 100000#32),
    unary main_c_14 main_v71 (broadcastInDim S700000 ![] bcast_S_S700000 : (⟨S_, .i32⟩ : BufTy).Contents (Elt F) → (⟨S700000, .i32⟩ : BufTy).Contents (Elt F)),
    binary main_v3 main_v71 main_v72 (addi : (⟨S700000, .i32⟩ : BufTy).Contents (Elt F) → (⟨S700000, .i32⟩ : BufTy).Contents (Elt F) → (⟨S700000, .i32⟩ : BufTy).Contents (Elt F)),
    ternary main_v70 main_v72 main_v3 main_v73 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v73 main_v74 (broadcastInDim S700000x1 ![0] bcast_S700000_S700000x1_0 : (⟨S700000, .i32⟩ : BufTy).Contents (Elt F) → (⟨S700000x1, .i32⟩ : BufTy).Contents (Elt F)),
    binary main_v68 main_v74 main_v75 ((fun x i => Host.gather gather_S100000x40_S700000x1_S700000x40_1_0_n_n_0_1_140 x i) : (⟨S100000x40, .f32⟩ : BufTy).Contents (Elt F) → (⟨S700000x1, .i32⟩ : BufTy).Contents (Elt F) → (⟨S700000x40, .f32⟩ : BufTy).Contents (Elt F)),
    unary main_v31 main_v76 (broadcastInDim S700000x1 ![0] bcast_S700000_S700000x1_0 : (⟨S700000, .f32⟩ : BufTy).Contents (Elt F) → (⟨S700000x1, .f32⟩ : BufTy).Contents (Elt F)),
    unary main_v76 main_v77 (broadcastInDim S700000x40 ![0, 1] bcast_S700000x1_S700000x40_0_1 : (⟨S700000x1, .f32⟩ : BufTy).Contents (Elt F) → (⟨S700000x40, .f32⟩ : BufTy).Contents (Elt F)),
    binary main_v75 main_v77 main_v78 (mulf : (⟨S700000x40, .f32⟩ : BufTy).Contents (Elt F) → (⟨S700000x40, .f32⟩ : BufTy).Contents (Elt F) → (⟨S700000x40, .f32⟩ : BufTy).Contents (Elt F)),
    nullary main_cst_15 (constant S_ .f32 0x00000000#32),
    unary main_cst_15 main_v79 (broadcastInDim S100000x40 ![] bcast_S_S100000x40 : (⟨S_, .f32⟩ : BufTy).Contents (Elt F) → (⟨S100000x40, .f32⟩ : BufTy).Contents (Elt F)),
    unary main_v6 main_v80 (broadcastInDim S700000x1 ![0] bcast_S700000_S700000x1_0 : (⟨S700000, .i32⟩ : BufTy).Contents (Elt F) → (⟨S700000x1, .i32⟩ : BufTy).Contents (Elt F)),
    ternary main_v79 main_v80 main_v78 main_v81 ((fun x i u => Host.scatterAdd scatter_S100000x40_S700000x1_S700000x40_1_0_0_1 x i u) : (⟨S100000x40, .f32⟩ : BufTy).Contents (Elt F) → (⟨S700000x1, .i32⟩ : BufTy).Contents (Elt F) → (⟨S700000x40, .f32⟩ : BufTy).Contents (Elt F) → (⟨S100000x40, .f32⟩ : BufTy).Contents (Elt F)),
    unary main_arg7 main_v82 (broadcastInDim S1x40 ![1] bcast_S40_S1x40_1 : (⟨S40, .f32⟩ : BufTy).Contents (Elt F) → (⟨S1x40, .f32⟩ : BufTy).Contents (Elt F)),
    unary main_v82 main_v83 (broadcastInDim S100000x40 ![0, 1] bcast_S1x40_S100000x40_0_1 : (⟨S1x40, .f32⟩ : BufTy).Contents (Elt F) → (⟨S100000x40, .f32⟩ : BufTy).Contents (Elt F)),
    binary main_v81 main_v83 main_v84 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x40, .f32⟩) main_call3_v0) (broadcastInDim S100000x40 ![] bcast_S_S100000x40),
    TRef.binary (TRef.of (T := ⟨S100000x40, .f32⟩) main_v84) (TRef.of (T := ⟨S100000x40, .f32⟩) main_call3_v0) (TRef.of (T := ⟨S100000x40, .f32⟩) main_v85) maximumf,
    TRef.nullary (TRef.of (T := ⟨S_, .f32⟩) main_call4_cst) (constant S_ .f32 0xFF800000#32),
    TRef.binary (TRef.of (T := ⟨S100000x40, .f32⟩) main_v85) (TRef.of (T := ⟨S_, .f32⟩) main_call4_cst) (TRef.of (T := ⟨S100000, .f32⟩) main_call4_v0) (fun x v => Host.reduce FloatOps.maximumf x v reducesTo_S100000x40_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x40, .f32⟩) main_call4_v4) (broadcastInDim S100000x40 ![0, 1] bcast_S100000x1_S100000x40_0_1),
    TRef.binary (TRef.of (T := ⟨S100000x40, .f32⟩) main_v85) (TRef.of (T := ⟨S100000x40, .f32⟩) main_call4_v4) (TRef.of (T := ⟨S100000x40, .f32⟩) main_call4_v5) subf,
    TRef.unary (TRef.of (T := ⟨S100000x40, .f32⟩) main_call4_v5) (TRef.of (T := ⟨S100000x40, .f32⟩) main_call4_v6) Host.exp,
    TRef.nullary (TRef.of (T := ⟨S_, .f32⟩) main_call4_cst_1) (constant S_ .f32 0x00000000#32),
    TRef.binary (TRef.of (T := ⟨S100000x40, .f32⟩) main_call4_v6) (TRef.of (T := ⟨S_, .f32⟩) main_call4_cst_1) (TRef.of (T := ⟨S100000, .f32⟩) main_call4_v7) (fun x v => Host.reduceAdd x v reducesTo_S100000x40_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x40, .f32⟩) main_call4_v10) (broadcastInDim S100000x40 ![0, 1] bcast_S100000x1_S100000x40_0_1),
    TRef.binary (TRef.of (T := ⟨S100000x40, .f32⟩) main_call4_v5) (TRef.of (T := ⟨S100000x40, .f32⟩) main_call4_v10) (TRef.of (T := ⟨S100000x40, .f32⟩) main_v86) subf ]

/-- The whole line is the four stretches in a row. -/
theorem ops_eq : (ops : List (HloOp τ sig (Elt F))) = opsA ++ (opsB1 ++ (opsB2 ++ opsB3)) := rfl

/-- The contents after the whole line: the four stretches' folds nested. -/
theorem after_ops (V : Valuation τ sig (Elt F)) :
    after ops V = after opsB3 (after opsB2 (after opsB1 (after opsA V))) := by
  rw [ops_eq, StableHlo.after_append, StableHlo.after_append, StableHlo.after_append]

/-! ## What each stretch leaves alone -/

/-- The references the stretch writes. -/
abbrev opsA_W : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31]

theorem opsA_writes : (opsA : List (HloOp τ sig (Elt F))).Forall fun op => op.writes ⊆ (opsA_W.map (Proc.devRef (τ := τ) .tc)).toFinset := by
  simp only [opsA, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A reference the stretch does not write keeps its contents. -/
theorem keepA (W : Valuation τ sig (Elt F)) (r : Ref sig .tc) (h : r ∉ opsA_W) :
    after opsA W (Proc.devRef .tc r) = W (Proc.devRef .tc r) :=
  after_of_writes_sub opsA W opsA_writes h

/-- The references the stretch writes. -/
abbrev opsB1_W : List (Ref sig .tc) :=
  [main_v32, main_c_7, main_v33, main_v34, main_c_8, main_v35, main_v36, main_v37, main_v38, main_v39, main_v40, main_v41, main_v42, main_cst_9, main_v43, main_v44, main_v45, main_v46, main_v47, main_v48, main_call1_cst, main_call1_v0, main_v49]

theorem opsB1_writes : (opsB1 : List (HloOp τ sig (Elt F))).Forall fun op => op.writes ⊆ (opsB1_W.map (Proc.devRef (τ := τ) .tc)).toFinset := by
  simp only [opsB1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A reference the stretch does not write keeps its contents. -/
theorem keepB1 (W : Valuation τ sig (Elt F)) (r : Ref sig .tc) (h : r ∉ opsB1_W) :
    after opsB1 W (Proc.devRef .tc r) = W (Proc.devRef .tc r) :=
  after_of_writes_sub opsB1 W opsB1_writes h

/-- The references the stretch writes. -/
abbrev opsB2_W : List (Ref sig .tc) :=
  [main_v50, main_c_10, main_v51, main_v52, main_c_11, main_v53, main_v54, main_v55, main_v56, main_v57, main_v58, main_v59, main_v60, main_cst_12, main_v61, main_v62, main_v63, main_v64, main_v65, main_v66, main_call2_cst, main_call2_v0, main_v67]

theorem opsB2_writes : (opsB2 : List (HloOp τ sig (Elt F))).Forall fun op => op.writes ⊆ (opsB2_W.map (Proc.devRef (τ := τ) .tc)).toFinset := by
  simp only [opsB2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A reference the stretch does not write keeps its contents. -/
theorem keepB2 (W : Valuation τ sig (Elt F)) (r : Ref sig .tc) (h : r ∉ opsB2_W) :
    after opsB2 W (Proc.devRef .tc r) = W (Proc.devRef .tc r) :=
  after_of_writes_sub opsB2 W opsB2_writes h

/-- The references the stretch writes. -/
abbrev opsB3_W : List (Ref sig .tc) :=
  [main_v68, main_c_13, main_v69, main_v70, main_c_14, main_v71, main_v72, main_v73, main_v74, main_v75, main_v76, main_v77, main_v78, main_cst_15, main_v79, main_v80, main_v81, main_v82, main_v83, main_v84, main_call3_cst, main_call3_v0, main_v85, main_call4_cst, main_call4_v0, main_call4_cst_0, main_call4_v1, main_call4_v2, main_call4_v3, main_call4_v4, main_call4_v5, main_call4_v6, main_call4_cst_1, main_call4_v7, main_call4_v8, main_call4_v9, main_call4_v10, main_v86]

theorem opsB3_writes : (opsB3 : List (HloOp τ sig (Elt F))).Forall fun op => op.writes ⊆ (opsB3_W.map (Proc.devRef (τ := τ) .tc)).toFinset := by
  simp only [opsB3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A reference the stretch does not write keeps its contents. -/
theorem keepB3 (W : Valuation τ sig (Elt F)) (r : Ref sig .tc) (h : r ∉ opsB3_W) :
    after opsB3 W (Proc.devRef .tc r) = W (Proc.devRef .tc r) :=
  after_of_writes_sub opsB3 W opsB3_writes h

/-! ## What each stretch computes -/

/-- The source column: the edge list's first row, then one self-loop per node. -/
theorem A_v3 (W : Valuation τ sig (Elt F)) :
    after opsA W (Proc.devRef .tc main_v3) = Cert.Gcn.srcIdx (W (Proc.devRef .tc main_arg1)) := by
  simp only [opsA]
  after_results_simp
  rfl

/-- The target column: the edge list's second row, then the same self-loops. -/
theorem A_v6 (W : Valuation τ sig (Elt F)) :
    after opsA W (Proc.devRef .tc main_v6) = Cert.Gcn.dstIdx (W (Proc.devRef .tc main_arg1)) := by
  simp only [opsA]
  after_results_simp
  rfl

/-- The edges' weights. -/
theorem A_v31 (W : Valuation τ sig (Elt F)) :
    after opsA W (Proc.devRef .tc main_v31) = Cert.Gcn.edgeNorm (W (Proc.devRef .tc main_arg1)) := by
  simp only [opsA]
  after_results_simp
  dsimp only [TRef.ofBuf, TRef.toBuf]
  simp (config := {implicitDefEqProofs := false}) only [cast_eq]
  rfl

/-- The first layer, from the columns, the weights, the features and the layer's matrix and bias. -/
theorem B1_v49 (W : Valuation τ sig (Elt F)) :
    after opsB1 W (Proc.devRef .tc main_v49)
      = Cert.Gcn.biasRelu128 (Cert.Gcn.aggOf128 (W (Proc.devRef .tc main_v3)) (W (Proc.devRef .tc main_v6)) (W (Proc.devRef .tc main_v31))
          (Cert.Gcn.lin128 (W (Proc.devRef .tc main_arg0)) (W (Proc.devRef .tc main_arg2)))) (W (Proc.devRef .tc main_arg3)) := by
  simp only [opsB1]
  after_results_simp
  dsimp only [TRef.ofBuf, TRef.toBuf]
  simp (config := {implicitDefEqProofs := false}) only [cast_eq]
  rfl

/-- The second layer, from the first layer's result. -/
theorem B2_v67 (W : Valuation τ sig (Elt F)) :
    after opsB2 W (Proc.devRef .tc main_v67)
      = Cert.Gcn.biasRelu128 (Cert.Gcn.aggOf128 (W (Proc.devRef .tc main_v3)) (W (Proc.devRef .tc main_v6)) (W (Proc.devRef .tc main_v31))
          (Cert.Gcn.lin128 (W (Proc.devRef .tc main_v49)) (W (Proc.devRef .tc main_arg4)))) (W (Proc.devRef .tc main_arg5)) := by
  simp only [opsB2]
  after_results_simp
  dsimp only [TRef.ofBuf, TRef.toBuf]
  simp (config := {implicitDefEqProofs := false}) only [cast_eq]
  rfl

/-- The third layer and the log-softmax, from the second layer's result. -/
theorem B3_v86 (W : Valuation τ sig (Elt F)) :
    after opsB3 W (Proc.devRef .tc main_v86)
      = Cert.Gcn.logSoftmax40 (Cert.Gcn.biasRelu40 (Cert.Gcn.aggOf40 (W (Proc.devRef .tc main_v3)) (W (Proc.devRef .tc main_v6)) (W (Proc.devRef .tc main_v31))
          (Cert.Gcn.lin40 (W (Proc.devRef .tc main_v67)) (W (Proc.devRef .tc main_arg6)))) (W (Proc.devRef .tc main_arg7))) := by
  simp only [opsB3]
  after_results_simp
  dsimp only [TRef.ofBuf, TRef.toBuf]
  simp (config := {implicitDefEqProofs := false}) only [cast_eq]
  rfl

/-! ## The whole line -/

/-- No operation writes an argument: a reference none of the four stretches writes ends as it started. -/
theorem after_ops_keep (V : Valuation τ sig (Elt F)) (r : Ref sig .tc)
    (hA : r ∉ opsA_W) (hB1 : r ∉ opsB1_W) (hB2 : r ∉ opsB2_W) (hB3 : r ∉ opsB3_W) :
    after ops V (Proc.devRef .tc r) = V (Proc.devRef .tc r) := by
  rw [after_ops, keepB3 _ r hB3, keepB2 _ r hB2, keepB1 _ r hB1, keepA _ r hA]

/-- The result buffer ends at the network of the arguments' contents. -/
theorem after_ops_v86 (V : Valuation τ sig (Elt F)) :
    after ops V (Proc.devRef .tc main_v86)
      = Cert.Gcn.gcn (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  -- the columns and the weights, after each of the first three stretches
  have s0 := A_v3 V
  have d0 := A_v6 V
  have n0 := A_v31 V
  have s1 := (keepB1 (after opsA V) main_v3 (by decide)).trans s0
  have d1 := (keepB1 (after opsA V) main_v6 (by decide)).trans d0
  have n1 := (keepB1 (after opsA V) main_v31 (by decide)).trans n0
  have s2 := (keepB2 (after opsB1 (after opsA V)) main_v3 (by decide)).trans s1
  have d2 := (keepB2 (after opsB1 (after opsA V)) main_v6 (by decide)).trans d1
  have n2 := (keepB2 (after opsB1 (after opsA V)) main_v31 (by decide)).trans n1
  -- the arguments a layer reads, where it reads them
  have x0 := keepA V main_arg0 (by decide)
  have w10 := keepA V main_arg2 (by decide)
  have b10 := keepA V main_arg3 (by decide)
  have w21 := (keepB1 (after opsA V) main_arg4 (by decide)).trans (keepA V main_arg4 (by decide))
  have b21 := (keepB1 (after opsA V) main_arg5 (by decide)).trans (keepA V main_arg5 (by decide))
  have w32 := (keepB2 (after opsB1 (after opsA V)) main_arg6 (by decide)).trans
    ((keepB1 (after opsA V) main_arg6 (by decide)).trans (keepA V main_arg6 (by decide)))
  have b32 := (keepB2 (after opsB1 (after opsA V)) main_arg7 (by decide)).trans
    ((keepB1 (after opsA V) main_arg7 (by decide)).trans (keepA V main_arg7 (by decide)))
  -- the two hidden layers
  have h1 : after opsB1 (after opsA V) (Proc.devRef .tc main_v49)
      = Cert.Gcn.hidden (V (Proc.devRef .tc main_arg0)) (V (Proc.devRef .tc main_arg1)) (V (Proc.devRef .tc main_arg2)) (V (Proc.devRef .tc main_arg3)) := by
    rw [B1_v49, s0, d0, n0, x0, w10, b10]; rfl
  have h2 : after opsB2 (after opsB1 (after opsA V)) (Proc.devRef .tc main_v67)
      = Cert.Gcn.hidden (Cert.Gcn.hidden (V (Proc.devRef .tc main_arg0)) (V (Proc.devRef .tc main_arg1)) (V (Proc.devRef .tc main_arg2)) (V (Proc.devRef .tc main_arg3)))
          (V (Proc.devRef .tc main_arg1)) (V (Proc.devRef .tc main_arg4)) (V (Proc.devRef .tc main_arg5)) := by
    rw [B2_v67, s1, d1, n1, h1, w21, b21]; rfl
  rw [after_ops, B3_v86, s2, d2, n2, h2, w32, b32]; rfl

/-! ## The run -/

/-- On its one device, for any float values, from any memory with zero counters: every weakly fair execution of the
    reference's @main terminates, and every final state has the result buffer at the network of the arguments' launch
    contents and each argument buffer holding what it held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86)
          = Cert.Gcn.gcn (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono (fun _ h c =>
      ⟨(h c main_v86).trans (after_ops_v86 _),
       (h c main_arg0).trans (after_ops_keep _ main_arg0 (by decide) (by decide) (by decide) (by decide)),
       (h c main_arg1).trans (after_ops_keep _ main_arg1 (by decide) (by decide) (by decide) (by decide)),
       (h c main_arg2).trans (after_ops_keep _ main_arg2 (by decide) (by decide) (by decide) (by decide)),
       (h c main_arg3).trans (after_ops_keep _ main_arg3 (by decide) (by decide) (by decide) (by decide)),
       (h c main_arg4).trans (after_ops_keep _ main_arg4 (by decide) (by decide) (by decide) (by decide)),
       (h c main_arg5).trans (after_ops_keep _ main_arg5 (by decide) (by decide) (by decide) (by decide)),
       (h c main_arg6).trans (after_ops_keep _ main_arg6 (by decide) (by decide) (by decide) (by decide)),
       (h c main_arg7).trans (after_ops_keep _ main_arg7 (by decide) (by decide) (by decide) (by decide))⟩)
    (run_seq scopedRefs_eq scopedSems_eq defs main (fun _ => ops) main_eq (fun _ => ops_sub) m ρ)

end Cert.ReferenceIdeal.RefValue

end
-- ==== Proof.lean ====
/-
  A three-layer graph convolution with a closing log-softmax: the kernel program (six pipelines among host
  operations) against its plain reference, equal over the extended reals.

  Both programs compute ONE function of the eight argument arrays, Cert.Gcn.gcn (Proof/Spec.lean). From the edge
  list both form, by the same host operations, the edges' source and target columns, the degrees and the edges'
  weights; a layer is a matrix product, the gather of each edge's source row scaled by the edge's weight and summed
  into its target row, the bias and the clamp at zero; the result is the third layer's rows less their maximum and
  less the logarithm of the sum of their exponentials. The programs differ only in who computes three of the pieces:
  the kernel program computes the matrix products, the bias and clamp, and the closing log-softmax in pipelines over
  blocks of 5000 rows, where the reference applies whole-array host operations. On the extended reals the
  conversion to a narrower float format is the identity, a block matrix product into a zero accumulator and the
  host's product are the same sum over the 128 contracted coordinates, the lane reductions and the host's
  reductions are the same fold of max and the same sum, and the reference's extra maximum with minus infinity changes
  nothing; the 20 blocks tile each output array. No law used needs finiteness, so the precondition is never opened.

  The kernel program's frames are the generated ones; its run with the result array named is the same launch
  called again (Proof/KernelRun.lean); the reference's frame is its run with the result dropped. Nothing was
  rewritten when the idealized kernel was printed, so the idealization claim is trivial.
-/
import proofs.«142489_j22153441312995_1_alg».proof.Defs
import proofs.«142489_j22153441312995_1_alg».proof.Proof.Gen.Kernel
import proofs.«142489_j22153441312995_1_alg».proof.Proof.Gen.Kernel.Frame
import proofs.«142489_j22153441312995_1_alg».proof.Proof.Gen.KernelIdeal
import proofs.«142489_j22153441312995_1_alg».proof.Proof.Gen.KernelIdeal.Frame
import proofs.«142489_j22153441312995_1_alg».proof.Proof.Gen.ReferenceIdeal
import proofs.«142489_j22153441312995_1_alg».proof.Proof.Gen.Pre_finite_inputs
import proofs.«142489_j22153441312995_1_alg».proof.Proof.KernelRun
import proofs.«142489_j22153441312995_1_alg».proof.Proof.KernelValue
import proofs.«142489_j22153441312995_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- Both idealized programs end with the network's function of the (agreeing) arguments in their result arrays. -/
theorem algebraic : Cert.algebraic_KernelIdeal_ReferenceIdeal := by
  intro m ρ m' ρ' _ hagree
  refine ⟨fun c => Cert.Gcn.gcn (F := Ideal) (Cert.KernelIdeal.Value.aX m c) (Cert.KernelIdeal.Value.aE m c) (Cert.KernelIdeal.Value.aW1 m c)
      (Cert.KernelIdeal.Value.aB1 m c) (Cert.KernelIdeal.Value.aW2 m c) (Cert.KernelIdeal.Value.aB2 m c) (Cert.KernelIdeal.Value.aW3 m c)
      (Cert.KernelIdeal.Value.aB3 m c), ?_, ?_⟩
  · exact (θ_run Cert.KernelIdeal.defs _ _).mono
      (fun r h c => ⟨(h c).1.trans (Cert.KernelIdeal.Value.result m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
